-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x4096 : Shape := ⟨2, ![4, 4096]⟩
abbrev S1024x2048 : Shape := ⟨2, ![1024, 2048]⟩
abbrev S2048x1024 : Shape := ⟨2, ![2048, 1024]⟩
abbrev S2048 : Shape := ⟨1, ![2048]⟩
abbrev S1024 : Shape := ⟨1, ![1024]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S2048 .f32) (main_arg6 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x4096x2048 .f32) (main_arg1 : FVec F S4x4096x2048 .f32) (main_arg2 : IVec S4x4096 1) (main_arg3 : FVec F S1024x2048 .f32) (main_arg4 : FVec F S2048x1024 .f32) (main_arg5 : FVec F S2048 .f32) (main_arg6 : FVec F S1024 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg5 main_arg6 main_v13 main_v16
-- ==== Kernel.lean ====
abbrev S4x4096x2048 : Shape := ⟨3, ![4, 4096, 2048]⟩
abbrev S4x4096 : Shape := ⟨2, ![4, 4096]⟩
abbrev S1024x2048 : Shape := ⟨2, ![1024, 2048]⟩
abbrev S2048x1024 : Shape := ⟨2, ![2048, 1024]⟩
abbrev S2048 : Shape := ⟨1, ![2048]⟩
abbrev S1024 : Shape := ⟨1, ![1024]⟩
abbrev S_ : Shape := ⟨0, ![]⟩
abbrev S16384x1 : Shape := ⟨2, ![16384, 1]⟩
abbrev S16384x2048 : Shape := ⟨2, ![16384, 2048]⟩
abbrev S1x2048 : Shape := ⟨2, ![1, 2048]⟩
abbrev S1x1024 : Shape := ⟨2, ![1, 1024]⟩
abbrev S512x2048 : Shape := ⟨2, ![512, 2048]⟩
abbrev S512x1 : Shape := ⟨2, ![512, 1]⟩
abbrev S512 : Shape := ⟨1, ![512]⟩
abbrev S512x1024 : Shape := ⟨2, ![512, 1024]⟩

abbrev nBuf : Space → Nat
  | .hbm => 26
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096, .i1⟩
  | .hbm, ⟨3, _⟩ => ⟨S1024x2048, .f32⟩
  | .hbm, ⟨4, _⟩ => ⟨S2048x1024, .f32⟩
  | .hbm, ⟨5, _⟩ => ⟨S2048, .f32⟩
  | .hbm, ⟨6, _⟩ => ⟨S1024, .f32⟩
  | .hbm, ⟨7, _⟩ => ⟨S4x4096, .i32⟩
  | .hbm, ⟨8, _⟩ => ⟨S_, .i32⟩
  | .hbm, ⟨9, _⟩ => ⟨S_, .i32⟩
  | .hbm, ⟨10, _⟩ => ⟨S4x4096, .i32⟩
  | .hbm, ⟨11, _⟩ => ⟨S_, .i32⟩
  | .hbm, ⟨12, _⟩ => ⟨S4x4096, .i32⟩
  | .hbm, ⟨13, _⟩ => ⟨S4x4096, .i1⟩
  | .hbm, ⟨14, _⟩ => ⟨S4x4096, .i1⟩
  | .hbm, ⟨15, _⟩ => ⟨S4x4096, .f32⟩
  | .hbm, ⟨16, _⟩ => ⟨S16384x1, .f32⟩
  | .hbm, ⟨17, _⟩ => ⟨S16384x2048, .f32⟩
  | .hbm, ⟨18, _⟩ => ⟨S2048x1024, .f32⟩
  | .hbm, ⟨19, _⟩ => ⟨S2048x1024, .bf16⟩
  | .hbm, ⟨20, _⟩ => ⟨S1024x2048, .f32⟩
  | .hbm, ⟨21, _⟩ => ⟨S1024x2048, .bf16⟩
  | .hbm, ⟨22, _⟩ => ⟨S1x2048, .f32⟩
  | .hbm, ⟨23, _⟩ => ⟨S1x1024, .f32⟩
  | .hbm, ⟨24, _⟩ => ⟨S16384x2048, .f32⟩
  | .hbm, ⟨25, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S1x2048, .f32⟩
  | .local _ .vmem, ⟨5, _⟩ => ⟨S1x1024, .f32⟩
  | .local _ .vmem, ⟨6, _⟩ => ⟨S2048x1024, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_call0_c : Ref sig .tc := ⟨.hbm, 8, rfl⟩
abbrev main_call0_call0_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  natLt_1_32 : 1 < 32
  bcast_S_S_ : S_.BroadcastsInDim S_ (![] : Fin 0 → Fin S_.rank)
  reduceWindows_S4x4096_S4x4096_w1s1p0_0_w4096s1p4095_0 : S4x4096.ReduceWindows (![1, 4096] : Fin 2 → Nat) ![1, 1] ![0, 4095] ![0, 0] S4x4096
  h_S_ : 0 < S_.numel
  bcast_S_S4x4096 : S_.BroadcastsInDim S4x4096 (![] : Fin 0 → Fin S4x4096.rank)
  shapeCasts_S4x4096_S16384x1 : S4x4096.ShapeCasts S16384x1
  shapeCasts_S4x4096x2048_S16384x2048 : S4x4096x2048.ShapeCasts S16384x2048
  transposes_S1024x2048_S2048x1024_1_0 : S1024x2048.Transposes [1, 0] S2048x1024
  bitsLt_bf16_f32 : FTy.bits .bf16 < FTy.bits .f32
  transposes_S2048x1024_S1024x2048_1_0 : S2048x1024.Transposes [1, 0] S1024x2048
  shapeCasts_S2048_S1x2048 : S2048.ShapeCasts S1x2048
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S512x1024_S512 : S512x1024.Reduces [1] S512
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S16384x2048_S4x4096x2048 : S16384x2048.ShapeCasts S4x4096x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S16384x2048.size a
  hwx0_6 : ∀ i : grid0.Coords, EltTy.bits .f32 = 32 ∨ (Rect.block (s := S16384x2048) S512x2048.size (cc0_transform_6 i) (hinb0_6 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v7) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x4096 : Shape := ⟨2, ![4, 4096]⟩
abbrev S1024x2048 : Shape := ⟨2, ![1024, 2048]⟩
abbrev S2048x1024 : Shape := ⟨2, ![2048, 1024]⟩
abbrev S2048 : Shape := ⟨1, ![2048]⟩
abbrev S1024 : Shape := ⟨1, ![1024]⟩
abbrev S4x2048 : Shape := ⟨2, ![4, 2048]⟩
abbrev S4x2048x1 : Shape := ⟨3, ![4, 2048, 1]⟩
abbrev S_ : Shape := ⟨0, ![]⟩
abbrev S1 : Shape := ⟨1, ![1]⟩
abbrev S1x1x1 : Shape := ⟨3, ![1, 1, 1]⟩
abbrev S4x2048x2048 : Shape := ⟨3, ![4, 2048, 2048]⟩
abbrev S1x1x2048 : Shape := ⟨3, ![1, 1, 2048]⟩
abbrev S4x2048x1024 : Shape := ⟨3, ![4, 2048, 1024]⟩
abbrev S1x1x1024 : Shape := ⟨3, ![1, 1, 1024]⟩
abbrev S4 : Shape := ⟨1, ![4]⟩
abbrev S4x1 : Shape := ⟨2, ![4, 1]⟩
abbrev S4x2048x2 : Shape := ⟨3, ![4, 2048, 2]⟩

abbrev nBuf : Space → Nat
  | .hbm => 119
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096, .i1⟩
  | .hbm, ⟨3, _⟩ => ⟨S1024x2048, .f32⟩
  | .hbm, ⟨4, _⟩ => ⟨S2048x1024, .f32⟩
  | .hbm, ⟨5, _⟩ => ⟨S2048, .f32⟩
  | .hbm, ⟨6, _⟩ => ⟨S1024, .f32⟩
  | .hbm, ⟨7, _⟩ => ⟨S4x4096, .i1⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x2048, .i32⟩
  | .hbm, ⟨13, _⟩ => ⟨S4x2048x1, .i32⟩
  | .hbm, ⟨14, _⟩ => ⟨S_, .i32⟩
  | .hbm, ⟨15, _⟩ => ⟨S4x2048x1, .i32⟩
  | .hbm, ⟨16, _⟩ => ⟨S4x2048x1, .i1⟩
  | .hbm, ⟨17, _⟩ => ⟨S_, .i32⟩
  | .hbm, ⟨18, _⟩ => ⟨S4x2048x1, .i32⟩
  | .hbm, ⟨19, _⟩ => ⟨S4x2048x1, .i32⟩
  | .hbm, ⟨20, _⟩ => ⟨S4x2048x1, .i32⟩
  | .hbm, ⟨21, _⟩ => ⟨S1, .i32⟩
  | .hbm, ⟨22, _⟩ => ⟨S_, .i32⟩
  | .hbm, ⟨23, _⟩ => ⟨S4x2048x1, .i32⟩
  | .hbm, ⟨24, _⟩ => ⟨S4x2048x1, .i1⟩
  | .hbm, ⟨25, _⟩ => ⟨S1x1x1, .i32⟩
  | .hbm, ⟨26, _⟩ => ⟨S4x2048x1, .i32⟩
  | .hbm, ⟨27, _⟩ => ⟨S4x2048x1, .i1⟩
  | .hbm, ⟨28, _⟩ => ⟨S4x2048x1, .i1⟩
  | .hbm, ⟨29, _⟩ => ⟨S_, .i1⟩
  | .hbm, ⟨30, _⟩ => ⟨S4x2048, .i1⟩
  | .hbm, ⟨31, _⟩ => ⟨S4x2048x2048, .f32⟩
  | .hbm, ⟨32, _⟩ => ⟨S4x2048x2048, .i1⟩
  | .hbm, ⟨33, _⟩ => ⟨S_, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S1x1x2048, .f32⟩
  | .hbm, ⟨50, _⟩ => ⟨S4x2048x2048, .f32⟩
  | .hbm, ⟨51, _⟩ => ⟨S4x2048x2048, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x2048, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S4x2048x1, .f32⟩
  | .hbm, ⟨64, _⟩ => ⟨S4x2048x1024, .f32⟩
  | .hbm, ⟨65, _⟩ => ⟨S4x2048x1024, .f32⟩
  | .hbm, ⟨66, _⟩ => ⟨S1x1x1024, .f32⟩
  | .hbm, ⟨67, _⟩ => ⟨S4x2048x1024, .f32⟩
  | .hbm, ⟨68, _⟩ => ⟨S4x2048x1024, .f32⟩
  | .hbm, ⟨69, _⟩ => ⟨S4x2048x2048, .f32⟩
  | .hbm, ⟨70, _⟩ => ⟨S_, .i32⟩
  | .hbm, ⟨71, _⟩ => ⟨S4x2048, .i32⟩
  | .hbm, ⟨72, _⟩ => ⟨S4x2048, .i1⟩
  | .hbm, ⟨73, _⟩ => ⟨S_, .i32⟩
  | .hbm, ⟨74, _⟩ => ⟨S4x2048, .i32⟩
  | .hbm, ⟨75, _⟩ => ⟨S4x2048, .i32⟩
  | .hbm, ⟨76, _⟩ => ⟨S4x2048, .i32⟩
  | .hbm, ⟨77, _⟩ => ⟨S4x2048x1, .i32⟩
  | .hbm, ⟨78, _⟩ => ⟨S1, .i32⟩
  | .hbm, ⟨79, _⟩ => ⟨S_, .i32⟩
  | .hbm, ⟨80, _⟩ => ⟨S4x2048x1, .i32⟩
  | .hbm, ⟨81, _⟩ => ⟨S4x2048x1, .i1⟩
  | .hbm, ⟨82, _⟩ => ⟨S1x1x1, .i32⟩
  | .hbm, ⟨83, _⟩ => ⟨S4x2048x1, .i32⟩
  | .hbm, ⟨84, _⟩ => ⟨S4x2048x1, .i1⟩
  | .hbm, ⟨85, _⟩ => ⟨S4x2048x1, .i1⟩
  | .hbm, ⟨86, _⟩ => ⟨S_, .i1⟩
  | .hbm, ⟨87, _⟩ => ⟨S4x2048, .i1⟩
  | .hbm, ⟨88, _⟩ => ⟨S4x2048, .i1⟩
  | .hbm, ⟨89, _⟩ => ⟨S_, .i1⟩
  | .hbm, ⟨90, _⟩ => ⟨S4x2048, .i1⟩
  | .hbm, ⟨91, _⟩ => ⟨S4x2048, .i1⟩
  | .hbm, ⟨92, _⟩ => ⟨S4x2048, .f32⟩
  | .hbm, ⟨93, _⟩ => ⟨S4x2048x1, .f32⟩
  | .hbm, ⟨94, _⟩ => ⟨S4x2048x2048, .f32⟩
  | .hbm, ⟨95, _⟩ => ⟨S4x2048x2048, .f32⟩
  | .hbm, ⟨96, _⟩ => ⟨S4, .i32⟩
  | .hbm, ⟨97, _⟩ => ⟨S4x1, .i32⟩
  | .hbm, ⟨98, _⟩ => ⟨S_, .f32⟩
  | .hbm, ⟨99, _⟩ => ⟨S4x4096x2048, .f32⟩
  | .hbm, ⟨100, _⟩ => ⟨S_, .i32⟩
  | .hbm, ⟨101, _⟩ => ⟨S4x1, .i32⟩
  | .hbm, ⟨102, _⟩ => ⟨S4x1, .i1⟩
  | .hbm, ⟨103, _⟩ => ⟨S_, .i32⟩
  | .hbm, ⟨104, _⟩ => ⟨S4x1, .i32⟩
  | .hbm, ⟨105, _⟩ => ⟨S4x1, .i32⟩
  | .hbm, ⟨106, _⟩ => ⟨S4x1, .i32⟩
  | .hbm, ⟨107, _⟩ => ⟨S_, .i32⟩
  | .hbm, ⟨108, _⟩ => ⟨S4x2048, .i32⟩
  | .hbm, ⟨109, _⟩ => ⟨S4x2048, .i1⟩
  | .hbm, ⟨110, _⟩ => ⟨S_, .i32⟩
  | .hbm, ⟨111, _⟩ => ⟨S4x2048, .i32⟩
  | .hbm, ⟨112, _⟩ => ⟨S4x2048, .i32⟩
  | .hbm, ⟨113, _⟩ => ⟨S4x2048, .i32⟩
  | .hbm, ⟨114, _⟩ => ⟨S4x2048, .i32⟩
  | .hbm, ⟨115, _⟩ => ⟨S4x2048x1, .i32⟩
  | .hbm, ⟨116, _⟩ => ⟨S4x2048x1, .i32⟩
  | .hbm, ⟨117, _⟩ => ⟨S4x2048x2, .i32⟩
  | .hbm, ⟨118, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_c_1 : Ref sig .tc := ⟨.hbm, 21, rfl⟩
abbrev main_call1_c_2 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_c_3 : Ref sig .tc := ⟨.hbm, 29, rfl⟩
abbrev main_call1_v11 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_v22 : Ref sig .tc := ⟨.hbm, 56, rfl⟩
abbrev main_cst_3 : Ref sig .tc := ⟨.hbm, 57, rfl⟩
abbrev main_v23 : Ref sig .tc := ⟨.hbm, 58, rfl⟩
abbrev main_v24 : Ref sig .tc := ⟨.hbm, 59, rfl⟩
abbrev main_cst_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_c_4 : Ref sig .tc := ⟨.hbm, 89, rfl⟩
abbrev main_call2_v14 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_5 : Ref sig .tc := ⟨.hbm, 98, rfl⟩
abbrev main_v41 : Ref sig .tc := ⟨.hbm, 99, rfl⟩
abbrev main_c : Ref sig .tc := ⟨.hbm, 100, rfl⟩
abbrev main_v42 : Ref sig .tc := ⟨.hbm, 101, rfl⟩
abbrev main_v43 : Ref sig .tc := ⟨.hbm, 102, rfl⟩
abbrev main_c_6 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_c_7 : Ref sig .tc := ⟨.hbm, 107, rfl⟩
abbrev main_v47 : Ref sig .tc := ⟨.hbm, 108, rfl⟩
abbrev main_v48 : Ref sig .tc := ⟨.hbm, 109, rfl⟩
abbrev main_c_8 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩

abbrev nD : Nat := 1
abbrev τ : Topo := Topo.v7x

variable {F : FTy → Type} [FloatOps F]

class Facts₀ : Prop where
  natLt_1_32 : 1 < 32
  slices_S4x4096_S4x2048_0_0 : S4x4096.Slices ![0, 0] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S1_S1x1x1_2 : S1.BroadcastsInDim S1x1x1 (![2] : Fin 1 → Fin S1x1x1.rank)
  bcast_S1x1x1_S4x2048x1_0_1_2 : S1x1x1.BroadcastsInDim S4x2048x1 (![0, 1, 2] : Fin 3 → Fin S4x2048x1.rank)
  reducesTo_S4x2048x1_S4x2048_d2 : S4x2048x1.ReducesTo [2] S4x2048
  h_S_ : 0 < S_.numel
  bcast_S4x2048_S4x2048x2048_0_1 : S4x2048.BroadcastsInDim S4x2048x2048 (![0, 1] : Fin 2 → Fin S4x2048x2048.rank)
  bcast_S_S4x2048x2048 : S_.BroadcastsInDim S4x2048x2048 (![] : Fin 0 → Fin S4x2048x2048.rank)
  reducesTo_S4x2048x2048_S4x2048_d2 : S4x2048x2048.ReducesTo [2] S4x2048
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  reducesTo_S4x2048x1024_S4x2048_d2 : S4x2048x1024.ReducesTo [2] S4x2048
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048 : S_.BroadcastsInDim S4x2048 (![] : Fin 0 → Fin S4x2048.rank)
  shapeCasts_S4x2048_S4x2048x1 : S4x2048.ShapeCasts S4x2048x1
  bcast_S4_S4x1_0 : S4.BroadcastsInDim S4x1 (![0] : Fin 1 → Fin S4x1.rank)
  bcast_S_S4x4096x2048 : S_.BroadcastsInDim S4x4096x2048 (![] : Fin 0 → Fin S4x4096x2048.rank)
  bcast_S_S4x1 : S_.BroadcastsInDim S4x1 (![] : Fin 0 → Fin S4x1.rank)
  bcast_S4x1_S4x2048_0_1 : S4x1.BroadcastsInDim S4x2048 (![0, 1] : Fin 2 → Fin S4x2048.rank)
  concatenates_S4x2048x1_S4x2048x1_S4x2048x2_d2 : Shape.Concatenates [S4x2048x1, S4x2048x1] S4x2048x2 2
  gather_S4x4096x2048_S4x2048x1_S4x2048x2048_2_1_0_0_1_2_112048_wf : GatherDims.WF S4x4096x2048 S4x2048x1 S4x2048x2048 [2] [1] [0] [1] [0] 2 ![1, 1, 2048]
  dot_S4x2048x2048_S1024x2048_S4x2048x1024_2_1_01_0_n_n_wf : DotDims.WF S4x2048x2048 S1024x2048 S4x2048x1024 [2] [1] [0, 1] [0] [] []
  dot_S4x2048x1024_S2048x1024_S4x2048x2048_2_1_01_0_n_n_wf : DotDims.WF S4x2048x1024 S2048x1024 S4x2048x2048 [2] [1] [0, 1] [0] [] []
  gather_S4x4096_S4x2048x1_S4x2048_n_1_0_0_1_2_11_wf : GatherDims.WF S4x4096 S4x2048x1 S4x2048 [] [1] [0] [1] [0] 2 ![1, 1]
  scatter_S4x4096x2048_S4x2048x2_S4x2048x2048_2_01_01_2_wf : ScatterDims.WF S4x4096x2048 S4x2048x2 S4x2048x2048 [2] [0, 1] [0, 1] 2

variable [Facts₀]

def comparator_i32_i32_d1 : BitVec 32 × BitVec 32 → BitVec 32 × BitVec 32 → BitVec 1 :=
  fun l r =>
    let v2 := IntOp.cmpi .slt l.1 r.1
    v2
def gather_S4x4096x2048_S4x2048x1_S4x2048x2048_2_1_0_0_1_2_112048 : GatherDims S4x4096x2048 S4x2048x1 S4x2048x2048 where
  offsetDims := [2]
  collapsedSliceDims := [1]
  operandBatchingDims := [0]
  startIndicesBatchingDims := [0]
  startIndexMap := [1]
  indexVectorDim := 2
  sliceSizes := ![1, 1, 2048]
  wf := gather_S4x4096x2048_S4x2048x1_S4x2048x2048_2_1_0_0_1_2_112048_wf
def dot_S4x2048x2048_S1024x2048_S4x2048x1024_2_1_01_0_n_n : DotDims S4x2048x2048 S1024x2048 S4x2048x1024 where
  lhsContracting := [2]
  rhsContracting := [1]
  lhsNonContracting := [0, 1]
  rhsNonContracting := [0]
  lhsBatch := []
  rhsBatch := []
  wf := dot_S4x2048x2048_S1024x2048_S4x2048x1024_2_1_01_0_n_n_wf
def dot_S4x2048x1024_S2048x1024_S4x2048x2048_2_1_01_0_n_n : DotDims S4x2048x1024 S2048x1024 S4x2048x2048 where
  lhsContracting := [2]
  rhsContracting := [1]
  lhsNonContracting := [0, 1]
  rhsNonContracting := [0]
  lhsBatch := []
  rhsBatch := []
  wf := dot_S4x2048x1024_S2048x1024_S4x2048x2048_2_1_01_0_n_n_wf
def gather_S4x4096_S4x2048x1_S4x2048_n_1_0_0_1_2_11 : GatherDims S4x4096 S4x2048x1 S4x2048 where
  offsetDims := []
  collapsedSliceDims := [1]
  operandBatchingDims := [0]
  startIndicesBatchingDims := [0]
  startIndexMap := [1]
  indexVectorDim := 2
  sliceSizes := ![1, 1]
  wf := gather_S4x4096_S4x2048x1_S4x2048_n_1_0_0_1_2_11_wf
def scatter_S4x4096x2048_S4x2048x2_S4x2048x2048_2_01_01_2 : ScatterDims S4x4096x2048 S4x2048x2 S4x2048x2048 where
  updateWindowDims := [2]
  insertedWindowDims := [0, 1]
  scatterDimsToOperandDims := [0, 1]
  indexVectorDim := 2
  wf := scatter_S4x4096x2048_S4x2048x2_S4x2048x2048_2_01_01_2_wf

class Facts : Prop extends Facts₀ where

variable [Facts]
-- ==== Proof.Spec.lean ====
/-
  The result both programs compute, as one function of the argument arrays.

  A row v of 2048 entries is scaled by 1/sqrt(mean(v²) + ε) and by the gain g_down, projected through w_down to 1024
  entries, scaled the same way with g_up, and projected through w_up back to 2048 entries: `rowUp`. Every operation
  is the exact one on the extended reals; the two constants 2048 and 1024 of the means and ε are kept as the words the
  programs print.

  Row i of batch b is KEPT when its mask bit is set and it is among the first 2048 set bits of its batch, that is when
  the number of set bits at positions ≤ i is at most 2048 (`cnt`, `keep`). The result holds `rowUp` of the row at a kept
  position and 0 elsewhere (`G`).
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![4, 4096, 2048]⟩
abbrev SM : Shape := ⟨2, ![4, 4096]⟩
abbrev SWd : Shape := ⟨2, ![1024, 2048]⟩
abbrev SWu : Shape := ⟨2, ![2048, 1024]⟩
abbrev SGd : Shape := ⟨1, ![2048]⟩
abbrev SGu : Shape := ⟨1, ![1024]⟩

/-- 1/sqrt(ss / n + ε): the scale of a row whose squares sum to `ss`, `n` the word of the row's length. -/
def scale (ss n : EReal) : EReal := Ideal.rsqrt (Ideal.div ss n + Ideal.ofBits .f32 0x3727C5AC#32)

/-- The row normalised and multiplied by the gain, entry d. -/
def norm1 (v gd : Fin 2048 → EReal) (d : Fin 2048) : EReal :=
  v d * scale (∑ k : Fin 2048, v k * v k) (Ideal.ofBits .f32 0x45000000#32) * gd d

/-- The down projection: entry o is the normalised row against row o of w_down. -/
def down (v gd : Fin 2048 → EReal) (wd : Fin 1024 → Fin 2048 → EReal) (o : Fin 1024) : EReal :=
  ∑ d : Fin 2048, norm1 v gd d * wd o d

/-- The projected row normalised and multiplied by the second gain, entry o. -/
def norm2 (h gu : Fin 1024 → EReal) (o : Fin 1024) : EReal :=
  h o * scale (∑ k : Fin 1024, h k * h k) (Ideal.ofBits .f32 0x44800000#32) * gu o

/-- The whole row function: entry j of the up projection of the twice normalised row. -/
def rowUp (v gd : Fin 2048 → EReal) (wd : Fin 1024 → Fin 2048 → EReal) (gu : Fin 1024 → EReal)
    (wu : Fin 2048 → Fin 1024 → EReal) (j : Fin 2048) : EReal :=
  ∑ o : Fin 1024, norm2 (down v gd wd) gu o * wu j o

/-- The number of positions j ≤ i that carry the key. -/
def cnt {n : Nat} (key : Fin n → Bool) (i : Fin n) : Nat :=
  ((List.finRange n).filter fun j => decide (j ≤ i) && key j).length

/-- The mask of batch b as a key on the positions. -/
def keyOf (M : SM.Idx → BitVec 1) (b : Fin 4) (i : Fin 4096) : Bool := decide (M (ix2 b i) = 1#1)

/-- Position i of batch b is kept: its bit is set, and at most 2048 set bits lie at positions ≤ i. -/
def keep (M : SM.Idx → BitVec 1) (b : Fin 4) (i : Fin 4096) : Bool :=
  keyOf M b i && decide (cnt (keyOf M b) i ≤ 2048)

/-- The result at batch b, position i, feature j. -/
def Gat (X : SX.Idx → EReal) (M : SM.Idx → BitVec 1) (Wd : SWd.Idx → EReal) (Wu : SWu.Idx → EReal)
    (Gd : SGd.Idx → EReal) (Gu : SGu.Idx → EReal) (b : Fin 4) (i : Fin 4096) (j : Fin 2048) : EReal :=
  if keep M b i then
    rowUp (fun d => X (ix3 b i d)) (fun d => Gd (ix1 d)) (fun o d => Wd (ix2 o d)) (fun o => Gu (ix1 o))
      (fun j' o => Wu (ix2 j' o)) j
  else 0

/-- The result array. -/
def G (X : SX.Idx → EReal) (M : SM.Idx → BitVec 1) (Wd : SWd.Idx → EReal) (Wu : SWu.Idx → EReal)
    (Gd : SGd.Idx → EReal) (Gu : SGu.Idx → EReal) : SX.Idx → EReal :=
  fun idx => Gat X M Wd Wu Gd Gu (idx 0) (idx 1) (idx 2)

theorem G_apply (X : SX.Idx → EReal) (M : SM.Idx → BitVec 1) (Wd : SWd.Idx → EReal) (Wu : SWu.Idx → EReal)
    (Gd : SGd.Idx → EReal) (Gu : SGu.Idx → EReal) (b : Fin 4) (i : Fin 4096) (j : Fin 2048) :
    G X M Wd Wu Gd Gu (ix3 b i j) = Gat X M Wd Wu Gd Gu b i j := rfl

/-- An array that agrees with `Gat` at every coordinate triple is `G`. -/
theorem eq_G_of_apply (X : SX.Idx → EReal) (M : SM.Idx → BitVec 1) (Wd : SWd.Idx → EReal) (Wu : SWu.Idx → EReal)
    (Gd : SGd.Idx → EReal) (Gu : SGu.Idx → EReal) (R : SX.Idx → EReal)
    (h : ∀ (b : Fin 4) (i : Fin 4096) (j : Fin 2048), R (ix3 b i j) = Gat X M Wd Wu Gd Gu b i j) :
    R = G X M Wd Wu Gd Gu := by
  funext idx
  rw [eq_ix3 idx]
  exact h _ _ _

end Cert.Spec

end
-- ==== Proof.SortRank.lean ====
/-
  The stable sort of the positions by a two-valued key.

  `before k k'` says that position k carries the key and k' does not. The stable insertion sort of 0, 1, …, n-1 under
  it lists the positions that carry the key, in increasing order, and then the others, in increasing order
  (`sortPositions_two_valued`). So a position i that carries the key lands at the place numbered by the key-carrying
  positions before it, and it is among the first K places exactly when at most K key-carrying positions are ≤ i
  (`prefix_iff_cnt`).
-/
import Idealize.ShloMosaic.PureOps.ShapeOps
import Idealize.ShloMosaic.Lib.SortFacts
import Mathlib.Data.List.Basic
import proofs.«156894_j48301202210919_1_alg».proof.Proof.Spec

namespace Cert.SortRank

open Idealize.ShloMosaic Cert.Spec

/-- Insertion walks past a prefix all of whose elements go before the new one. -/
private theorem insertBefore_append {ι : Type} (before : ι → ι → Bool) (a : ι) (p q : List ι)
    (hp : ∀ b ∈ p, before b a = true) :
    insertBefore before a (p ++ q) = p ++ insertBefore before a q := by
  induction p with
  | nil => rfl
  | cons b p ih =>
    have hba : before b a = true := hp b List.mem_cons_self
    rw [List.cons_append, insertBefore, if_pos hba, ih (fun c hc => hp c (List.mem_cons_of_mem _ hc)), List.cons_append]

/-- Insertion into a list none of whose elements goes before the new one puts it first. -/
private theorem insertBefore_head {ι : Type} (before : ι → ι → Bool) (a : ι) (q : List ι)
    (hq : ∀ b ∈ q, before b a = false) : insertBefore before a q = a :: q := by
  cases q with
  | nil => rfl
  | cons b q =>
    have hba : before b a = false := hq b List.mem_cons_self
    rw [insertBefore, if_neg (by rw [hba]; exact Bool.false_ne_true)]

/-- The stable sort of any list by a two-valued key: the key-carrying elements in their order, then the others in
    theirs. -/
private theorem stableSort_two_valued {ι : Type} (key : ι → Bool) (before : ι → ι → Bool)
    (hb : ∀ k k', before k k' = (key k && !key k')) (l : List ι) :
    stableSort before l = l.filter key ++ l.filter (fun j => !key j) := by
  induction l with
  | nil => rfl
  | cons a l ih =>
    rw [stableSort, ih]
    cases ha : key a with
    | true =>
      -- nothing goes before an element that carries the key
      rw [insertBefore_head before a _ (fun b _ => by rw [hb, ha]; simp)]
      simp [List.filter_cons, ha]
    | false =>
      -- every key-carrying element goes before a, no other element does
      rw [insertBefore_append before a _ _ (fun b hmem => by
            rw [hb, ha, (List.mem_filter.mp hmem).2]; rfl),
          insertBefore_head before a _ (fun b hmem => by
            have hk : (!key b) = true := (List.mem_filter.mp hmem).2
            rw [hb, ha]; simpa using hk)]
      simp [List.filter_cons, ha]

/-- The sorted list of positions: the key-carrying ones in order, then the rest in order. -/
theorem sortPositions_two_valued {n : Nat} (key : Fin n → Bool) (before : Fin n → Fin n → Bool)
    (hb : ∀ k k', before k k' = (key k && !key k')) :
    sortPositions n before = (List.finRange n).filter key ++ (List.finRange n).filter (fun j => !key j) :=
  stableSort_two_valued key before hb (List.finRange n)

/-- In an increasing list, the place of a key-carrying element i among the key-carrying elements, plus one, is the
    number of key-carrying elements ≤ i. -/
private theorem idxOf_filter_succ {n : Nat} (key : Fin n → Bool) (i : Fin n) (hi : key i = true) (l : List (Fin n))
    (hl : l.Pairwise (· < ·)) (hmem : i ∈ l) :
    (l.filter key).idxOf i + 1 = (l.filter fun j => decide (j ≤ i) && key j).length := by
  induction l with
  | nil => simp at hmem
  | cons a l ih =>
    rw [List.pairwise_cons] at hl
    by_cases hai : a = i
    · subst hai
      -- a itself is the first key-carrying element, and everything after it is larger
      have hnil : (l.filter fun j => decide (j ≤ a) && key j) = [] := by
        rw [List.filter_eq_nil_iff]
        intro b hbl
        have : a < b := hl.1 b hbl
        simp [Fin.not_le.mpr this]
      simp [List.filter_cons, hi, hnil]
    · have hil : i ∈ l := by
        rcases List.mem_cons.mp hmem with h | h
        · exact absurd h.symm hai
        · exact h
      have hlt : a < i := hl.1 i hil
      have hle : a ≤ i := Fin.le_of_lt hlt
      have IH := ih hl.2 hil
      cases ha : key a with
      | true =>
        rw [List.filter_cons, if_pos ha, List.idxOf_cons_ne _ hai, List.filter_cons,
          if_pos (by simp [hle, ha]), List.length_cons, ← IH]
      | false =>
        rw [List.filter_cons, if_neg (by simp [ha]), List.filter_cons, if_neg (by simp [ha]), IH]

/-- A key-carrying position is among the first K sorted places iff at most K key-carrying positions are ≤ it. -/
theorem prefix_iff_cnt {n : Nat} (key : Fin n → Bool) (before : Fin n → Fin n → Bool)
    (hb : ∀ k k', before k k' = (key k && !key k')) (i : Fin n) (hi : key i = true) (K : Nat) :
    (∃ s : Fin n, s.val < K ∧ sortedFrom before s = i) ↔ cnt key i ≤ K := by
  have hlen : (sortPositions n before).length = n := length_sortPositions n before
  have hnd : (sortPositions n before).Nodup :=
    (perm_sortPositions n before).nodup_iff.mpr (List.nodup_finRange n)
  have himem : i ∈ (List.finRange n).filter key := List.mem_filter.mpr ⟨List.mem_finRange i, hi⟩
  -- the place of i in the sorted list is its place among the key-carrying positions
  have hidx : (sortPositions n before).idxOf i + 1 = cnt key i := by
    rw [sortPositions_two_valued key before hb, List.idxOf_append_of_mem himem]
    exact idxOf_filter_succ key i hi _ (List.pairwise_lt_finRange n) (List.mem_finRange i)
  have hin : i ∈ sortPositions n before := (perm_sortPositions n before).mem_iff.mpr (List.mem_finRange i)
  have hlt : (sortPositions n before).idxOf i < (sortPositions n before).length := List.idxOf_lt_length_of_mem hin
  constructor
  · rintro ⟨s, hsK, hs⟩
    have hs' : (sortPositions n before)[s.val]'(by rw [hlen]; exact s.isLt) = i := hs
    have : (sortPositions n before).idxOf i = s.val := by
      rw [← hs']; exact hnd.idxOf_getElem s.val _
    omega
  · intro hK
    refine ⟨⟨(sortPositions n before).idxOf i, Nat.lt_of_lt_of_eq hlt hlen⟩, by simp only; omega, ?_⟩
    show (sortPositions n before)[(sortPositions n before).idxOf i]'hlt = i
    exact List.getElem_idxOf hlt

/-- The count never exceeds the number of positions. -/
theorem cnt_le {n : Nat} (key : Fin n → Bool) (i : Fin n) : cnt key i ≤ n := by
  unfold cnt
  exact (List.length_filter_le _ _).trans (List.length_finRange).le

end Cert.SortRank
-- ==== Proof.RefSort.lean ====
/-
  The reference's argsort, read at one place.

  The reference sorts each batch row's positions stably by the key "mask bit is clear" (a widened, complemented bit
  compared as a signed word) carrying the positions themselves, so position k sorts strictly before k' exactly when k's
  bit is set and k' 's is clear (`before`). `place M b s` is the position the sort puts at place s of batch row b; the
  second result of the sort holds it as a 32-bit word (`v2_apply`), and the slice keeps the first 2048 places
  (`v3_apply`). Distinct places hold distinct positions, and a position whose bit is set is among the first 2048 places
  exactly when at most 2048 set bits lie at positions up to it (`place_prefix_iff`).
-/
import proofs.«156894_j48301202210919_1_alg».proof.Proof.RefRead
import proofs.«156894_j48301202210919_1_alg».proof.Proof.SortRank
import proofs.«156894_j48301202210919_1_alg».proof.Proof.Spec
import Idealize.ShloMosaic.Lib.SortFacts
import Idealize.ShloMosaic.Lib.StableHlo.Predicate
import Idealize.ShloMosaic.Lib.ValueIdx

noncomputable section

open Idealize.ShloMosaic Idealize.ShloMosaic.TcCoe Idealize.SL.Sem Idealize.ShloMosaic.ValueIdx

namespace Cert.RefSort

open Cert.ReferenceIdeal Cert.ReferenceIdeal.Gen Cert.ReferenceIdeal.ReadP Cert.Spec

/-- Position k of batch row b sorts strictly before position k': k's bit is set and k' 's is clear. -/
def before (M : S4x4096.Idx → BitVec 1) (b : Fin 4) (k k' : Fin 4096) : Bool := keyOf M b k && !keyOf M b k'

/-- The position the stable sort of batch row b puts at place s. -/
def place (M : S4x4096.Idx → BitVec 1) (b : Fin 4) (s : Fin 4096) : Fin 4096 := sortedFrom (before M b) s

/-- One of the first 2048 places, as a place. -/
def up (s : Fin 2048) : Fin 4096 := s.castLE (by decide)

/-- The second result of a two-operand sort along an axis, read at an index: the second operand at the position the
    stable sort of the fiber through the index puts at the index's place. -/
theorem sort2_snd (s : Shape) (d : Nat) (hd : d < s.rank) {α β : Type} (cmp : α × β → α × β → BitVec 1)
    (x : s.Idx → α) (y : s.Idx → β) (j : s.Idx) :
    (Host.sort2 s d cmp x y).2 j =
      y (j.along ⟨d, hd⟩ (sortedFrom (fun k k' => cmp (x (j.along ⟨d, hd⟩ k), y (j.along ⟨d, hd⟩ k))
        (x (j.along ⟨d, hd⟩ k'), y (j.along ⟨d, hd⟩ k')) == 1#1) (j ⟨d, hd⟩))) := by
  unfold Host.sort2
  rw [dif_pos hd]

/-- The fiber of a 4 × 4096 array through (b, s) along the second axis is the row b. -/
theorem along1_ix2 (b : Fin 4) (s : Fin 4096) (hd : 1 < S4x4096.rank) (k : Fin 4096) :
    (ix2 b s : S4x4096.Idx).along ⟨1, hd⟩ k = ix2 b k := by
  funext a
  match a with
  | ⟨0, _⟩ => rfl
  | ⟨1, _⟩ => rfl

/-- The complemented, widened bit of k is below that of k' as signed words exactly when k's bit is set and k' 's is clear. -/
theorem key_lt (u v : BitVec 1) :
    (IntOp.cmpi .slt ((~~~u).setWidth 32) ((~~~v).setWidth 32) == 1#1) = (decide (u = 1#1) && !decide (v = 1#1)) := by
  rcases BitVec.eq_zero_or_eq_one u with rfl | rfl <;> rcases BitVec.eq_zero_or_eq_one v with rfl | rfl <;> decide

theorem place_injective (M : S4x4096.Idx → BitVec 1) (b : Fin 4) : Function.Injective (place M b) :=
  sortedFrom_injective (before M b)

theorem place_prefix_iff (M : S4x4096.Idx → BitVec 1) (b : Fin 4) (i : Fin 4096) (hi : keyOf M b i = true) :
    (∃ s : Fin 2048, place M b (up s) = i) ↔ cnt (keyOf M b) i ≤ 2048 := by
  rw [← Cert.SortRank.prefix_iff_cnt (keyOf M b) (before M b) (fun _ _ => rfl) i hi 2048]
  constructor
  · rintro ⟨s, hs⟩
    exact ⟨up s, s.isLt, hs⟩
  · rintro ⟨s, hsK, hs⟩
    refine ⟨⟨s.val, hsK⟩, ?_⟩
    have e : up ⟨s.val, hsK⟩ = s := Fin.ext rfl
    rw [e]
    exact hs

/-- The place function is the stable sorting permutation under `before`. -/
theorem place_def (M : S4x4096.Idx → BitVec 1) (b : Fin 4) (s : Fin 4096) : place M b s = sortedFrom (before M b) s := rfl

/-- Every position is at some place. -/
theorem place_surjective (M : S4x4096.Idx → BitVec 1) (b : Fin 4) : Function.Surjective (place M b) :=
  sortedFrom_surjective (before M b)

/-- A kept place has the same number as a place. -/
theorem up_val (s : Fin 2048) : (up s).val = s.val := rfl

/-- The second result of a two-operand sort of 4 × 4096 arrays along the second axis, at (b, s): the second operand at
    the position of row b that the stable sort puts at place s, for any relation R that the comparator on row b's pairs
    decides. -/
theorem sort2_snd_ix2 {α β : Type} (cmp : α × β → α × β → BitVec 1) (x : S4x4096.Idx → α) (y : S4x4096.Idx → β)
    (b : Fin 4) (s : Fin 4096) (R : Fin 4096 → Fin 4096 → Bool)
    (hR : ∀ k k', (cmp (x (ix2 b k), y (ix2 b k)) (x (ix2 b k'), y (ix2 b k')) == 1#1) = R k k') :
    (Host.sort2 S4x4096 1 cmp x y).2 (ix2 b s) = y (ix2 b (sortedFrom R s)) := by
  have hd : 1 < S4x4096.rank := by decide
  rw [sort2_snd S4x4096 1 hd cmp x y (ix2 b s)]
  have hf : (fun k k' : Fin 4096 => cmp (x ((ix2 b s : S4x4096.Idx).along ⟨1, hd⟩ k), y ((ix2 b s : S4x4096.Idx).along ⟨1, hd⟩ k))
      (x ((ix2 b s : S4x4096.Idx).along ⟨1, hd⟩ k'), y ((ix2 b s : S4x4096.Idx).along ⟨1, hd⟩ k')) == 1#1) = R := by
    funext k k'
    rw [along1_ix2 b s hd k, along1_ix2 b s hd k']
    exact hR k k'
  refine (congrArg y (along1_ix2 b s hd _)).trans ?_
  refine congrArg (fun K => y (ix2 b K)) ?_
  exact congrArg (fun f => sortedFrom f s) hf

/-- The sort's second result (the sorted positions) at place s of batch row b. -/
theorem v2_apply (M : S4x4096.Idx → BitVec 1) (b : Fin 4) (s : Fin 4096) :
    val_main_v2 (F := Ideal) M (ix2 b s) = BitVec.ofNat 32 (place M b s).val := by
  unfold val_main_v2
  rw [sort2_snd_ix2 comparator_i32_i32_d1 (val_main_v1 (F := Ideal) M) (val_main_call0_v0 (F := Ideal)) b s (before M b)
    (fun k k' => key_lt (M (ix2 b k)) (M (ix2 b k')))]
  unfold place
  generalize sortedFrom (before M b) s = K
  rfl

/-- The kept places. -/
theorem v3_apply (M : S4x4096.Idx → BitVec 1) (b : Fin 4) (s : Fin 2048) :
    val_main_v3 (F := Ideal) M (ix2 b s) = BitVec.ofNat 32 (place M b (up s)).val := by
  rw [val_main_v3_apply]
  have e : idx_main_v3 (ix2 b s) = ix2 b (up s) := by
    funext a
    match a with
    | ⟨0, _⟩ => rfl
    | ⟨1, _⟩ => rfl
  rw [e]
  exact v2_apply M b (up s)

attribute [irreducible] place

end Cert.RefSort

end
-- ==== Proof.RefGather.lean ====
/-
  The reference's two gathers along the sorted positions.

  Row s of batch b of the gathered x is row `place M b s` of x, and the gathered mask bit at (b, s) is the mask bit at
  that position: the position word is non-negative and below 4096, so the wrap-around of negative indices selects the
  word itself, the in-range test passes (so the select takes the gathered value, never the fill), and the gather's clamp
  changes nothing.
-/
import proofs.«156894_j48301202210919_1_alg».proof.Proof.RefRead
import proofs.«156894_j48301202210919_1_alg».proof.Proof.RefSort
import Idealize.ShloMosaic.Lib.StableHlo.Predicate
import Idealize.ShloMosaic.Lib.Pipeline.Value
import Idealize.ShloMosaic.Lib.ValueIdx
import Idealize.ShloMosaic.Lib.ReduceAll

noncomputable section

open Idealize.ShloMosaic Idealize.ShloMosaic.TcCoe Idealize.SL.Sem Idealize.ShloMosaic.ValueIdx

namespace Cert.RefGather

open Cert.ReferenceIdeal Cert.ReferenceIdeal.Gen Cert.ReferenceIdeal.ReadP Cert.Spec Cert.RefSort
open Idealize.ShloMosaic.StableHlo.Predicate

/-! ## The position word: a 32-bit word of a value below 4096 -/

theorem word_toNat (p : ℕ) (hp : p < 4096) : (BitVec.ofNat 32 p).toNat = p := by
  rw [BitVec.toNat_ofNat]; omega

/-- It is not negative ... -/
theorem word_slt (p : ℕ) (hp : p < 4096) : IntOp.cmpi .slt (BitVec.ofNat 32 p) 0#32 = 0#1 := by
  apply eq_zero_of_ne_one
  rw [slt_iff_toNat (by rw [word_toNat p hp]; omega) (by decide), word_toNat p hp]
  exact Nat.not_lt_zero p

/-- ... so it passes the lower range test ... -/
theorem word_sge (p : ℕ) (hp : p < 4096) : IntOp.cmpi .sge (BitVec.ofNat 32 p) 0#32 = 1#1 := by
  rw [sge_iff_toNat (by rw [word_toNat p hp]; omega) (by decide), word_toNat p hp]
  exact Nat.zero_le _

/-- ... and the upper one ... -/
theorem word_sle (p : ℕ) (hp : p < 4096) : IntOp.cmpi .sle (BitVec.ofNat 32 p) 4095#32 = 1#1 := by
  rw [sle_iff_toNat (by rw [word_toNat p hp]; omega) (by decide), word_toNat p hp]
  show p ≤ 4095
  omega

/-- ... and the clamp of its signed value into [0, 4095] is the value. -/
theorem word_clamp (p : ℕ) (hp : p < 4096) : min (BitVec.ofNat 32 p).toInt.toNat (4096 - 1) = p := by
  rw [toInt_ofNat_small p (by omega), Int.toNat_natCast]
  omega

/-! ## An and-reduce of an array of ones -/

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-- An and-reduce from 1 of an array that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ (fun n _ => hx n)

/-! ## The two gathers read at an index

Both gathers pair operand axis 0 with start-indices axis 0 (a batching axis), index operand axis 1 by the one component
of the start index (the index vector lies on start-indices axis 2, of size 1) and collapse it; the gather of x keeps
operand axis 2 whole as the result's offset axis 2. -/

/-- The dimension numbers of the gather of x ... -/
abbrev GX : GatherDims S4x4096x2048 S4x2048x1 S4x2048x2048 := gather_S4x4096x2048_S4x2048x1_S4x2048x2048_2_1_0_0_1_2_112048
/-- ... and of the gather of the mask. -/
abbrev GM : GatherDims S4x4096 S4x2048x1 S4x2048 := gather_S4x4096_S4x2048x1_S4x2048_n_1_0_0_1_2_11

/-- Result index (b, s, d) of the gather of x reads its start index at (b, s, 0). -/
theorem gatherX_siIdx (j : S4x2048x2048.Idx) (c : Fin GX.startIndexMap.length) :
    GX.siIdx j c = ix3 (j 0) (j 1) (0 : Fin 1) := by
  funext a
  match a with
  | ⟨0, _⟩ => rfl
  | ⟨1, _⟩ => rfl
  | ⟨2, _⟩ => exact Fin.ext (Nat.lt_one_iff.mp (Fin.isLt _))

/-- The gather of x at (b, s, d): x at (b, the clamped start index at (b, s, 0), d). -/
theorem gatherX_apply {α : Type} (x : S4x4096x2048.Idx → α) (idx : IVec S4x2048x1 32) (j : S4x2048x2048.Idx) (p : Fin 4096)
    (hp : min (idx (ix3 (j 0) (j 1) (0 : Fin 1))).toInt.toNat (4096 - 1) = p.val) :
    Host.gather GX x idx j = x (ix3 (j 0) p (j 2)) := by
  unfold Host.gather
  congr 1
  funext a
  refine Fin.ext ?_
  match a with
  | ⟨0, _⟩ =>
    -- the batching axis: no start, no offset, the batch coordinate b
    show GX.start j idx 0 + GX.batchCoord j 0 + GX.offCoord j 0 = (j 0).val
    rw [GX.start_batching j idx 0 (by decide), GX.offCoord_eq_zero j 0 (by decide), Nat.zero_add, Nat.add_zero]
    rfl
  | ⟨1, _⟩ =>
    -- the indexed axis: the clamped start, no batch coordinate, collapsed
    show GX.start j idx 1 + GX.batchCoord j 1 + GX.offCoord j 1 = p.val
    rw [GX.batchCoord_eq_zero j 1 (by decide), GX.offCoord_eq_zero j 1 (by decide), Nat.add_zero]
    unfold GatherDims.start
    rw [dif_pos (by decide), gatherX_siIdx]
    exact hp
  | ⟨2, _⟩ =>
    -- the offset axis: start 0, no batch coordinate, the offset d
    show GX.start j idx 2 + GX.batchCoord j 2 + GX.offCoord j 2 = (j 2).val
    rw [GX.batchCoord_eq_zero j 2 (by decide), Nat.add_zero]
    unfold GatherDims.start
    rw [dif_neg (by decide), Nat.zero_add]
    rfl

/-- Result index (b, s) of the gather of the mask reads its start index at (b, s, 0). -/
theorem gatherM_siIdx (j : S4x2048.Idx) (c : Fin GM.startIndexMap.length) :
    GM.siIdx j c = ix3 (j 0) (j 1) (0 : Fin 1) := by
  funext a
  match a with
  | ⟨0, _⟩ => rfl
  | ⟨1, _⟩ => rfl
  | ⟨2, _⟩ => exact Fin.ext (Nat.lt_one_iff.mp (Fin.isLt _))

/-- The gather of the mask at (b, s): the mask at (b, the clamped start index at (b, s, 0)). -/
theorem gatherM_apply {α : Type} (x : S4x4096.Idx → α) (idx : IVec S4x2048x1 32) (j : S4x2048.Idx) (p : Fin 4096)
    (hp : min (idx (ix3 (j 0) (j 1) (0 : Fin 1))).toInt.toNat (4096 - 1) = p.val) :
    Host.gather GM x idx j = x (ix2 (j 0) p) := by
  unfold Host.gather
  congr 1
  funext a
  refine Fin.ext ?_
  match a with
  | ⟨0, _⟩ =>
    show GM.start j idx 0 + GM.batchCoord j 0 + GM.offCoord j 0 = (j 0).val
    rw [GM.start_batching j idx 0 (by decide), GM.offCoord_eq_zero j 0 (by decide), Nat.zero_add, Nat.add_zero]
    rfl
  | ⟨1, _⟩ =>
    show GM.start j idx 1 + GM.batchCoord j 1 + GM.offCoord j 1 = p.val
    rw [GM.batchCoord_eq_zero j 1 (by decide), GM.offCoord_eq_zero j 1 (by decide), Nat.add_zero]
    unfold GatherDims.start
    rw [dif_pos (by decide), gatherM_siIdx]
    exact hp

/-- The two gathers at coordinates. -/
theorem gatherX_ix {α : Type} (x : S4x4096x2048.Idx → α) (idx : IVec S4x2048x1 32) (b : Fin 4) (s d : Fin 2048)
    (p : Fin 4096) (hp : min (idx (ix3 b s (0 : Fin 1))).toInt.toNat (4096 - 1) = p.val) :
    Host.gather GX x idx (ix3 b s d) = x (ix3 b p d) :=
  gatherX_apply x idx (ix3 b s d) p hp

theorem gatherM_ix {α : Type} (x : S4x4096.Idx → α) (idx : IVec S4x2048x1 32) (b : Fin 4) (s : Fin 2048)
    (p : Fin 4096) (hp : min (idx (ix3 b s (0 : Fin 1))).toInt.toNat (4096 - 1) = p.val) :
    Host.gather GM x idx (ix2 b s) = x (ix2 b p) :=
  gatherM_apply x idx (ix2 b s) p hp

/-! ## The position word through the wrap-around and the range test, for the gather of x -/

/-- The broadcast position word at (b, s, ·). -/
theorem v4_at (M : S4x4096.Idx → BitVec 1) (i : S4x2048x1.Idx) :
    val_main_v4 (F := Ideal) M i = BitVec.ofNat 32 (place M (i 0) (up (i 1))).val := by
  have e : idx_main_v4 i = ix2 (n0 := 4) (n1 := 2048) (i 0) (i 1) := by
    funext a
    match a with
    | ⟨0, _⟩ => rfl
    | ⟨1, _⟩ => rfl
  rw [val_main_v4_apply, e]
  exact v3_apply M (i 0) (i 1)

/-- The wrap-around of negative indices leaves it alone. -/
theorem c1v4_at (M : S4x4096.Idx → BitVec 1) (i : S4x2048x1.Idx) :
    val_main_call1_v4 (F := Ideal) M i = BitVec.ofNat 32 (place M (i 0) (up (i 1))).val := by
  rw [val_main_call1_v4_apply, val_main_call1_v1_apply, val_main_call1_v0_apply, val_main_call1_c_apply, v4_at,
    word_slt _ (place M (i 0) (up (i 1))).isLt, select_zero]

theorem c1v4_ix (M : S4x4096.Idx → BitVec 1) (b : Fin 4) (s : Fin 2048) (z : Fin 1) :
    val_main_call1_v4 (F := Ideal) M (ix3 b s z) = BitVec.ofNat 32 (place M b (up s)).val :=
  c1v4_at M (ix3 b s z)

/-- It is in range everywhere ... -/
theorem c1v10_at (M : S4x4096.Idx → BitVec 1) (i : S4x2048x1.Idx) : val_main_call1_v10 (F := Ideal) M i = 1#1 := by
  rw [val_main_call1_v10_apply, val_main_call1_v6_apply, val_main_call1_v9_apply, val_main_call1_v5_apply,
    val_main_call1_c_2_apply, val_main_call1_v8_apply, val_main_call1_v7_apply, val_main_call1_c_1_apply, c1v4_at,
    word_sge _ (place M (i 0) (up (i 1))).isLt, word_sle _ (place M (i 0) (up (i 1))).isLt]
  rfl

/-- ... so the and over the index vector's one component is 1 everywhere. -/
theorem c1v11_at (M : S4x4096.Idx → BitVec 1) (j : S4x2048.Idx) : val_main_call1_v11 (F := Ideal) M j = 1#1 := by
  unfold val_main_call1_v11
  exact reduce_andi_ones _ _ _ _ (c1v10_at M) (fun k => val_main_call1_c_3_apply k) j

theorem v5_apply (X : S4x4096x2048.Idx → EReal) (M : S4x4096.Idx → BitVec 1) (b : Fin 4) (s : Fin 2048) (d : Fin 2048) :
    val_main_v5 (F := Ideal) X M (ix3 b s d) = X (ix3 b (place M b (up s)) d) := by
  rw [val_main_v5_apply, val_main_call1_v13_apply, c1v11_at, select_one]
  unfold val_main_call1_v12
  exact gatherX_ix X _ b s d (place M b (up s)) (by rw [c1v4_ix]; exact word_clamp _ (place M b (up s)).isLt)

/-! ## The same for the gather of the mask -/

/-- The position word at (b, s). -/
theorem v3_at (M : S4x4096.Idx → BitVec 1) (i : S4x2048.Idx) :
    val_main_v3 (F := Ideal) M i = BitVec.ofNat 32 (place M (i 0) (up (i 1))).val := by
  exact (congrArg (val_main_v3 (F := Ideal) M) (eq_ix2 i)).trans (v3_apply M (i 0) (i 1))

/-- The wrap-around of negative indices leaves it alone. -/
theorem c2v4_at (M : S4x4096.Idx → BitVec 1) (i : S4x2048.Idx) :
    val_main_call2_v4 (F := Ideal) M i = BitVec.ofNat 32 (place M (i 0) (up (i 1))).val := by
  rw [val_main_call2_v4_apply, val_main_call2_v1_apply, val_main_call2_v0_apply, val_main_call2_c_apply, v3_at,
    word_slt _ (place M (i 0) (up (i 1))).isLt, select_zero]

theorem c2v4_ix (M : S4x4096.Idx → BitVec 1) (b : Fin 4) (s : Fin 2048) :
    val_main_call2_v4 (F := Ideal) M (ix2 b s) = BitVec.ofNat 32 (place M b (up s)).val :=
  c2v4_at M (ix2 b s)

/-- Reshaped to a column of index vectors of one component. -/
theorem c2v5_at (M : S4x4096.Idx → BitVec 1) (i : S4x2048x1.Idx) :
    val_main_call2_v5 (F := Ideal) M i = BitVec.ofNat 32 (place M (i 0) (up (i 1))).val := by
  have e : idx_main_call2_v5 i = ix2 (n0 := 4) (n1 := 2048) (i 0) (i 1) := by
    have h0 : (i 0).val < 4 := (i 0).isLt
    have h1 : (i 1).val < 2048 := (i 1).isLt
    have h2 : (i 2).val < 1 := (i 2).isLt
    funext a
    match a with
    | ⟨0, _⟩ =>
      refine Fin.ext ?_
      show (((i 0).val * 2048 + (i 1).val) * 1 + (i 2).val) / 2048 = (i 0).val
      omega
    | ⟨1, _⟩ =>
      refine Fin.ext ?_
      show (((i 0).val * 2048 + (i 1).val) * 1 + (i 2).val) % 2048 = (i 1).val
      omega
  rw [val_main_call2_v5_apply, e]
  exact c2v4_ix M (i 0) (i 1)

theorem c2v5_ix (M : S4x4096.Idx → BitVec 1) (b : Fin 4) (s : Fin 2048) (z : Fin 1) :
    val_main_call2_v5 (F := Ideal) M (ix3 b s z) = BitVec.ofNat 32 (place M b (up s)).val :=
  c2v5_at M (ix3 b s z)

/-- It is in range everywhere ... -/
theorem c2v11_at (M : S4x4096.Idx → BitVec 1) (i : S4x2048x1.Idx) : val_main_call2_v11 (F := Ideal) M i = 1#1 := by
  rw [val_main_call2_v11_apply, val_main_call2_v7_apply, val_main_call2_v10_apply, val_main_call2_v6_apply,
    val_main_call2_c_2_apply, val_main_call2_v9_apply, val_main_call2_v8_apply, val_main_call2_c_1_apply, c2v5_at,
    word_sge _ (place M (i 0) (up (i 1))).isLt, word_sle _ (place M (i 0) (up (i 1))).isLt]
  rfl

/-- ... so the and over the index vector's one component is 1 everywhere. -/
theorem c2v12_at (M : S4x4096.Idx → BitVec 1) (j : S4x2048.Idx) : val_main_call2_v12 (F := Ideal) M j = 1#1 := by
  unfold val_main_call2_v12
  exact reduce_andi_ones _ _ _ _ (c2v11_at M) (fun k => val_main_call2_c_3_apply k) j

theorem v34_apply (M : S4x4096.Idx → BitVec 1) (b : Fin 4) (s : Fin 2048) :
    val_main_v34 (F := Ideal) M (ix2 b s) = M (ix2 b (place M b (up s))) := by
  rw [val_main_v34_apply, c2v12_at, select_one]
  unfold val_main_call2_v13
  exact gatherM_ix M _ b s (place M b (up s)) (by rw [c2v5_ix]; exact word_clamp _ (place M b (up s)).isLt)

end Cert.RefGather

end
-- ==== Proof.RefRow.lean ====
/-
  The reference's row computation on the gathered rows.

  Entry (b, s, j) of the masked product the reference scatters is the gathered mask bit (as 0 or 1) times the row
  function of the gathered row: the squares' sum plus the zero initial value, divided by the row length, plus ε, inverse
  square root, times the row, times the gain; contracted with w_down; the same again; contracted with w_up.
-/
import proofs.«156894_j48301202210919_1_alg».proof.Proof.RefRead
import proofs.«156894_j48301202210919_1_alg».proof.Proof.RefSort
import proofs.«156894_j48301202210919_1_alg».proof.Proof.RefGather
import proofs.«156894_j48301202210919_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

open scoped BigOperators

namespace Cert.RefRow

open Cert.ReferenceIdeal Cert.ReferenceIdeal.Gen Cert.ReferenceIdeal.ReadP Cert.Spec Cert.RefSort

/-! ## The first normalisation: a row of 2048 entries

  Everything here is stated for an arbitrary row `v` that the gathered array holds at (b, s, ·); which row of x that is
  plays no part until the last theorem. -/

/-- The sum over the last axis at (b, s): the zero initial value disappears and each summand is a square. -/
theorem v7_at (X : S4x4096x2048.Idx → EReal) (M : S4x4096.Idx → BitVec 1) (b : Fin 4) (s : Fin 2048)
    (v : Fin 2048 → EReal) (hv : ∀ d : Fin 2048, val_main_v5 (F := Ideal) X M (ix3 b s d) = v d) :
    val_main_v7 (F := Ideal) X M (ix2 b s) = ∑ k : Fin 2048, v k * v k := by
  rw [val_main_v7_apply, val_main_cst_apply, Ideal.ofBits_def, Ideal.ofBits_zero_f32, zero_add]
  refine Finset.sum_congr rfl fun k _ => ?_
  have e : idx_main_v7 (ix2 b s) k = ix3 b s k :=
    funext fun a => Fin.ext (by match a with | ⟨0, _⟩ => rfl | ⟨1, _⟩ => rfl | ⟨2, _⟩ => rfl)
  rw [e, val_main_v6_apply, Ideal.mulf_def, hv]

/-- The scale of the row at (b, s): mean of the squares plus ε, inverse square root. -/
theorem v13_at (X : S4x4096x2048.Idx → EReal) (M : S4x4096.Idx → BitVec 1) (b : Fin 4) (s : Fin 2048)
    (v : Fin 2048 → EReal) (hv : ∀ d : Fin 2048, val_main_v5 (F := Ideal) X M (ix3 b s d) = v d) :
    val_main_v13 (F := Ideal) X M (ix3 b s (0 : Fin 1))
      = scale (∑ k : Fin 2048, v k * v k) (Ideal.ofBits .f32 0x45000000#32) := by
  have e : idx_main_v8 (ix3 b s (0 : Fin 1)) = ix2 b s :=
    funext fun a => Fin.ext (by match a with | ⟨0, _⟩ => rfl | ⟨1, _⟩ => rfl)
  rw [val_main_v13_apply, val_main_v12_apply, val_main_v10_apply, val_main_v8_apply, val_main_v9_apply,
    val_main_v11_apply, val_main_cst_0_apply, val_main_cst_1_apply, e, v7_at X M b s v hv]
  simp only [Ideal.hostUnary_rsqrt_def, Ideal.addf_def, Ideal.hostDivf_def, Ideal.ofBits_def, scale]

/-- The normalised row times the gain at (b, s, d). -/
theorem v18_at (X : S4x4096x2048.Idx → EReal) (M : S4x4096.Idx → BitVec 1) (Gd : S2048.Idx → EReal) (b : Fin 4)
    (s : Fin 2048) (v : Fin 2048 → EReal) (hv : ∀ d : Fin 2048, val_main_v5 (F := Ideal) X M (ix3 b s d) = v d)
    (d : Fin 2048) :
    val_main_v18 (F := Ideal) X M Gd (ix3 b s d) = norm1 v (fun d => Gd (ix1 d)) d := by
  have e14 : idx_main_v14 (ix3 b s d) = ix3 b s (0 : Fin 1) :=
    funext fun a => Fin.ext (by match a with | ⟨0, _⟩ => rfl | ⟨1, _⟩ => rfl | ⟨2, _⟩ => rfl)
  have e16 : idx_main_v16 (idx_main_v17 (ix3 b s d)) = ix1 d :=
    funext fun a => Fin.ext (by match a with | ⟨0, _⟩ => rfl)
  rw [val_main_v18_apply, val_main_v15_apply, val_main_v14_apply, val_main_v17_apply, val_main_v16_apply, e14, e16,
    v13_at X M b s v hv, hv]
  simp only [Ideal.mulf_def, norm1]

/-- The down projection at (b, s, o). -/
theorem v19_at (X : S4x4096x2048.Idx → EReal) (M : S4x4096.Idx → BitVec 1) (Wd : S1024x2048.Idx → EReal)
    (Gd : S2048.Idx → EReal) (b : Fin 4) (s : Fin 2048) (v : Fin 2048 → EReal)
    (hv : ∀ d : Fin 2048, val_main_v5 (F := Ideal) X M (ix3 b s d) = v d) (o : Fin 1024) :
    val_main_v19 (F := Ideal) X M Wd Gd (ix3 b s o)
      = down v (fun d => Gd (ix1 d)) (fun o d => Wd (ix2 o d)) o := by
  rw [val_main_v19_apply]
  unfold down
  refine Finset.sum_congr rfl fun k _ => ?_
  have el : lidx_main_v19 (ix3 b s o) k = ix3 b s k :=
    funext fun a => Fin.ext (by match a with | ⟨0, _⟩ => rfl | ⟨1, _⟩ => rfl | ⟨2, _⟩ => rfl)
  have er : ridx_main_v19 (ix3 b s o) k = ix2 o k :=
    funext fun a => Fin.ext (by match a with | ⟨0, _⟩ => rfl | ⟨1, _⟩ => rfl)
  rw [el, er, v18_at X M Gd b s v hv k]

/-! ## The second normalisation: the projected row of 1024 entries -/

/-- The sum of the projected row's squares at (b, s). -/
theorem v21_at (X : S4x4096x2048.Idx → EReal) (M : S4x4096.Idx → BitVec 1) (Wd : S1024x2048.Idx → EReal)
    (Gd : S2048.Idx → EReal) (b : Fin 4) (s : Fin 2048) (h : Fin 1024 → EReal)
    (hh : ∀ o : Fin 1024, val_main_v19 (F := Ideal) X M Wd Gd (ix3 b s o) = h o) :
    val_main_v21 (F := Ideal) X M Wd Gd (ix2 b s) = ∑ k : Fin 1024, h k * h k := by
  rw [val_main_v21_apply, val_main_cst_2_apply, Ideal.ofBits_def, Ideal.ofBits_zero_f32, zero_add]
  refine Finset.sum_congr rfl fun k _ => ?_
  have e : idx_main_v21 (ix2 b s) k = ix3 b s k :=
    funext fun a => Fin.ext (by match a with | ⟨0, _⟩ => rfl | ⟨1, _⟩ => rfl | ⟨2, _⟩ => rfl)
  rw [e, val_main_v20_apply, Ideal.mulf_def, hh]

/-- The scale of the projected row at (b, s). -/
theorem v27_at (X : S4x4096x2048.Idx → EReal) (M : S4x4096.Idx → BitVec 1) (Wd : S1024x2048.Idx → EReal)
    (Gd : S2048.Idx → EReal) (b : Fin 4) (s : Fin 2048) (h : Fin 1024 → EReal)
    (hh : ∀ o : Fin 1024, val_main_v19 (F := Ideal) X M Wd Gd (ix3 b s o) = h o) :
    val_main_v27 (F := Ideal) X M Wd Gd (ix3 b s (0 : Fin 1))
      = scale (∑ k : Fin 1024, h k * h k) (Ideal.ofBits .f32 0x44800000#32) := by
  have e : idx_main_v22 (ix3 b s (0 : Fin 1)) = ix2 b s :=
    funext fun a => Fin.ext (by match a with | ⟨0, _⟩ => rfl | ⟨1, _⟩ => rfl)
  rw [val_main_v27_apply, val_main_v26_apply, val_main_v24_apply, val_main_v22_apply, val_main_v23_apply,
    val_main_v25_apply, val_main_cst_3_apply, val_main_cst_4_apply, e, v21_at X M Wd Gd b s h hh]
  simp only [Ideal.hostUnary_rsqrt_def, Ideal.addf_def, Ideal.hostDivf_def, Ideal.ofBits_def, scale]

/-- The normalised projected row times the second gain at (b, s, o). -/
theorem v32_at (X : S4x4096x2048.Idx → EReal) (M : S4x4096.Idx → BitVec 1) (Wd : S1024x2048.Idx → EReal)
    (Gd : S2048.Idx → EReal) (Gu : S1024.Idx → EReal) (b : Fin 4) (s : Fin 2048) (h : Fin 1024 → EReal)
    (hh : ∀ o : Fin 1024, val_main_v19 (F := Ideal) X M Wd Gd (ix3 b s o) = h o) (o : Fin 1024) :
    val_main_v32 (F := Ideal) X M Wd Gd Gu (ix3 b s o) = norm2 h (fun o => Gu (ix1 o)) o := by
  have e28 : idx_main_v28 (ix3 b s o) = ix3 b s (0 : Fin 1) :=
    funext fun a => Fin.ext (by match a with | ⟨0, _⟩ => rfl | ⟨1, _⟩ => rfl | ⟨2, _⟩ => rfl)
  have e30 : idx_main_v30 (idx_main_v31 (ix3 b s o)) = ix1 o :=
    funext fun a => Fin.ext (by match a with | ⟨0, _⟩ => rfl)
  rw [val_main_v32_apply, val_main_v29_apply, val_main_v28_apply, val_main_v31_apply, val_main_v30_apply, e28, e30,
    v27_at X M Wd Gd b s h hh, hh]
  simp only [Ideal.mulf_def, norm2]

/-- The up projection at (b, s, j). -/
theorem v33_at (X : S4x4096x2048.Idx → EReal) (M : S4x4096.Idx → BitVec 1) (Wd : S1024x2048.Idx → EReal)
    (Wu : S2048x1024.Idx → EReal) (Gd : S2048.Idx → EReal) (Gu : S1024.Idx → EReal) (b : Fin 4) (s : Fin 2048)
    (h : Fin 1024 → EReal) (hh : ∀ o : Fin 1024, val_main_v19 (F := Ideal) X M Wd Gd (ix3 b s o) = h o)
    (j : Fin 2048) :
    val_main_v33 (F := Ideal) X M Wd Wu Gd Gu (ix3 b s j)
      = ∑ o : Fin 1024, norm2 h (fun o => Gu (ix1 o)) o * Wu (ix2 j o) := by
  rw [val_main_v33_apply]
  refine Finset.sum_congr rfl fun k _ => ?_
  have el : lidx_main_v33 (ix3 b s j) k = ix3 b s k :=
    funext fun a => Fin.ext (by match a with | ⟨0, _⟩ => rfl | ⟨1, _⟩ => rfl | ⟨2, _⟩ => rfl)
  have er : ridx_main_v33 (ix3 b s j) k = ix2 j k :=
    funext fun a => Fin.ext (by match a with | ⟨0, _⟩ => rfl | ⟨1, _⟩ => rfl)
  rw [el, er, v32_at X M Wd Gd Gu b s h hh k]

/-! ## The mask factor and the product -/

/-- The broadcast mask factor at (b, s, j): the gathered bit as 0 or 1. -/
theorem v37_at (M : S4x4096.Idx → BitVec 1) (b : Fin 4) (s : Fin 2048) (j : Fin 2048) (m : BitVec 1)
    (hm : val_main_v34 (F := Ideal) M (ix2 b s) = m) :
    val_main_v37 (F := Ideal) M (ix3 b s j) = ((m.toNat : ℝ) : EReal) := by
  have e : idx_main_v36 (idx_main_v37 (ix3 b s j)) = ix2 b s :=
    funext fun a => Fin.ext (by match a with | ⟨0, _⟩ => rfl | ⟨1, _⟩ => rfl)
  rw [val_main_v37_apply, val_main_v36_apply, val_main_v35_apply, e, hm]
  rfl

theorem v38_apply (X : S4x4096x2048.Idx → EReal) (M : S4x4096.Idx → BitVec 1) (Wd : S1024x2048.Idx → EReal)
    (Wu : S2048x1024.Idx → EReal) (Gd : S2048.Idx → EReal) (Gu : S1024.Idx → EReal) (b : Fin 4) (s : Fin 2048) (j : Fin 2048) :
    val_main_v38 (F := Ideal) X M Wd Wu Gd Gu (ix3 b s j)
      = (((M (ix2 b (place M b (up s)))).toNat : ℝ) : EReal)
        * rowUp (fun d => X (ix3 b (place M b (up s)) d)) (fun d => Gd (ix1 d)) (fun o d => Wd (ix2 o d))
            (fun o => Gu (ix1 o)) (fun j' o => Wu (ix2 j' o)) j := by
  rw [val_main_v38_apply, Ideal.mulf_def,
    v37_at M b s j _ (Cert.RefGather.v34_apply M b s),
    v33_at X M Wd Wu Gd Gu b s _
      (v19_at X M Wd Gd b s _ (Cert.RefGather.v5_apply X M b s)) j]
  rfl

end Cert.RefRow

end
-- ==== Proof.ScatterSet.lean ====
/-
  A scatter whose body returns the update ("set"), read at one element of the operand.

  The scatter walks the update indices in row-major order; an update whose target index lies inside the operand
  replaces the element there. If every update that lands on element i carries the same value v, and at least one
  lands there, the result at i is v (`scatter_set_hit`); if none lands there the result at i is the operand's element
  (`scatter_set_miss`).
-/
import Idealize.ShloMosaic.PureOps.ShapeOps

namespace Cert.ScatterSet

open Idealize.ShloMosaic

/-- A left fold whose step leaves element i alone unless the step's target (g n) is i, read at i when no step
    targets i: the element is unchanged. By induction on the list, for every starting function. -/
private theorem foldl_miss {ι κ α : Type} (step : (κ → α) → ι → κ → α) (g : ι → Option κ) (i : κ)
    (hmiss : ∀ r n, g n ≠ some i → step r n i = r i) :
    ∀ (l : List ι) (x : κ → α), (∀ n ∈ l, g n ≠ some i) → l.foldl step x i = x i := by
  intro l
  induction l with
  | nil => intro x _; rfl
  | cons a l ih =>
    intro x h
    rw [List.foldl_cons, ih _ (fun n hn => h n (List.mem_cons_of_mem _ hn))]
    exact hmiss x a (h a (List.mem_cons_self ..))

/-- The same fold when a step that targets i writes (val n) there, read at an element that some step targets, all
    steps targeting it writing the one value v: the result there is v. The last step that targets the element writes
    v and no later step touches it. -/
private theorem foldl_hit {ι κ α : Type} (step : (κ → α) → ι → κ → α) (g : ι → Option κ) (val : ι → α) (i : κ) (v : α)
    (hmiss : ∀ r n, g n ≠ some i → step r n i = r i)
    (hhit : ∀ r n, g n = some i → step r n i = val n) :
    ∀ (l : List ι) (x : κ → α), (∀ n ∈ l, g n = some i → val n = v) → (∃ n ∈ l, g n = some i) →
      l.foldl step x i = v := by
  intro l
  induction l with
  | nil => intro x _ hex; obtain ⟨n, hn, _⟩ := hex; cases hn
  | cons a l ih =>
    intro x hall hex
    rw [List.foldl_cons]
    by_cases hl : ∃ n ∈ l, g n = some i
    · exact ih _ (fun n hn => hall n (List.mem_cons_of_mem _ hn)) hl
    · have hno : ∀ n ∈ l, g n ≠ some i := fun n hn hg => hl ⟨n, hn, hg⟩
      have hga : g a = some i := by
        obtain ⟨n, hn, hg⟩ := hex
        rcases List.mem_cons.mp hn with rfl | hn'
        · exact hg
        · exact absurd hg (hno n hn')
      rw [foldl_miss step g i hmiss l _ hno, hhit x a hga]
      exact hall a (List.mem_cons_self ..) hga

theorem scatter_set_hit {s si u : Shape} {α : Type} {w : Nat} (d : ScatterDims s si u) (x : s.Idx → α) (idx : IVec si w)
    (upd : u.Idx → α) (i : s.Idx) (v : α)
    (hall : ∀ j : u.Idx, d.resultIdx? j idx = some i → upd j = v)
    (hex : ∃ j : u.Idx, d.resultIdx? j idx = some i) :
    Host.scatter d (fun _ b => b) x idx upd i = v := by
  obtain ⟨j, hj⟩ := hex
  unfold Host.scatter
  refine foldl_hit _ (fun n => d.resultIdx? (u.rowMajor.symm n) idx) (fun n => upd (u.rowMajor.symm n)) i v
    ?_ ?_ (List.finRange u.numel) x (fun n _ hn => hall _ hn)
    ⟨u.rowMajor j, List.mem_finRange _, by simpa using hj⟩
  · -- a step whose target is not i leaves element i alone
    intro r n h
    beta_reduce at h ⊢
    generalize d.resultIdx? (u.rowMajor.symm n) idx = o at h ⊢
    cases o with
    | none => rfl
    | some i₀ =>
      have hne : i ≠ i₀ := fun e => h (e ▸ rfl)
      dsimp only
      rw [if_neg hne]
  · -- a step whose target is i writes its update there
    intro r n h
    beta_reduce at h ⊢
    generalize d.resultIdx? (u.rowMajor.symm n) idx = o at h ⊢
    subst h
    dsimp only
    rw [if_pos rfl]

theorem scatter_set_miss {s si u : Shape} {α : Type} {w : Nat} (d : ScatterDims s si u) (x : s.Idx → α) (idx : IVec si w)
    (upd : u.Idx → α) (i : s.Idx)
    (hno : ∀ j : u.Idx, d.resultIdx? j idx ≠ some i) :
    Host.scatter d (fun _ b => b) x idx upd i = x i := by
  unfold Host.scatter
  refine foldl_miss _ (fun n => d.resultIdx? (u.rowMajor.symm n) idx) i ?_ (List.finRange u.numel) x (fun n _ => hno _)
  -- a step whose target is not i leaves element i alone
  intro r n h
  beta_reduce at h ⊢
  generalize d.resultIdx? (u.rowMajor.symm n) idx = o at h ⊢
  cases o with
  | none => rfl
  | some i₀ =>
    have hne : i ≠ i₀ := fun e => h (e ▸ rfl)
    dsimp only
    rw [if_neg hne]

end Cert.ScatterSet
-- ==== Proof.RefScatter.lean ====
/-
  The reference's scatter, and the reference's result as the specification.

  The scatter's index pair at (b, s) is (b, place M b s) — both words non-negative, so their wrap-around selects them —,
  and update element (b, s, j) lands on (b, place M b s, j), inside the operand. Places hold distinct positions, so
  element (b, i, j) of the zero operand is overwritten exactly when some kept place s holds i, by the masked row value
  of that place; otherwise it stays 0. A position with a set bit is at a kept place exactly when its running count is at
  most 2048; a position with a clear bit contributes 0 either way. Hence the result is `G`.
-/
import proofs.«156894_j48301202210919_1_alg».proof.Proof.RefRead
import proofs.«156894_j48301202210919_1_alg».proof.Proof.RefSort
import proofs.«156894_j48301202210919_1_alg».proof.Proof.RefRow
import proofs.«156894_j48301202210919_1_alg».proof.Proof.ScatterSet
import proofs.«156894_j48301202210919_1_alg».proof.Proof.Spec
import Idealize.ShloMosaic.Lib.StableHlo.Predicate
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.RefScatter

open Cert.ReferenceIdeal Cert.ReferenceIdeal.Gen Cert.ReferenceIdeal.ReadP Cert.Spec Cert.RefSort

/-- The wrap-around select of a word that is non-negative as a signed integer returns the word's own branch. -/
theorem select_slt_zero {α : Type} (w : BitVec 32) (hw : w.toNat < 2 ^ 31) (A B : α) :
    Scalar.select (IntOp.cmpi .slt w 0#32) A B = B := by
  have h : ¬ IntOp.cmpi .slt w 0#32 = 1#1 := by
    rw [StableHlo.Predicate.slt_iff_toNat hw (by decide)]
    simp
  rw [eq_zero_of_ne_one h, select_zero]

/-- The batch index: the word of the batch number. -/
theorem v46_apply (i : S4x1.Idx) : val_main_v46 (F := Ideal) i = BitVec.ofNat 32 (i 0).val := by
  rw [val_main_v46_apply, val_main_v43_apply, val_main_v42_apply, val_main_c_apply, val_main_v40_apply, val_main_v39_apply]
  refine select_slt_zero _ ?_ _ _
  have : (i 0).val < 4 := (i 0).isLt
  simp only [BitVec.toNat_ofNat]
  omega

/-- The position index: the word of the place's position. -/
theorem v51_apply (M : S4x4096.Idx → BitVec 1) (b : Fin 4) (s : Fin 2048) :
    val_main_v51 (F := Ideal) M (ix2 b s) = BitVec.ofNat 32 (place M b (up s)).val := by
  rw [val_main_v51_apply, val_main_v48_apply, val_main_v47_apply, val_main_c_7_apply, v3_apply]
  refine select_slt_zero _ ?_ _ _
  have := (place M b (up s)).isLt
  simp only [BitVec.toNat_ofNat]
  omega

theorem v55_apply0 (M : S4x4096.Idx → BitVec 1) (b : Fin 4) (s : Fin 2048) :
    val_main_v55 (F := Ideal) M (ix3 b s (0 : Fin 2)) = BitVec.ofNat 32 b.val := by
  unfold val_main_v55
  rw [concatenate_pair_apply_left (t := S4x2048x2) (s₁ := S4x2048x1) (s₂ := S4x2048x1) (2 : Fin 3) _ _ _ (ix3 b s (0 : Fin 2)) rfl (ix3 b s (0 : Fin 1))
    (fun a => match a with | ⟨0, _⟩ => rfl | ⟨1, _⟩ => rfl | ⟨2, _⟩ => rfl)]
  rw [val_main_v53_apply, val_main_v52_apply, v46_apply]

theorem v55_apply1 (M : S4x4096.Idx → BitVec 1) (b : Fin 4) (s : Fin 2048) :
    val_main_v55 (F := Ideal) M (ix3 b s (1 : Fin 2)) = BitVec.ofNat 32 (place M b (up s)).val := by
  unfold val_main_v55
  rw [concatenate_pair_apply_right (t := S4x2048x2) (s₁ := S4x2048x1) (s₂ := S4x2048x1) (2 : Fin 3) _ _ _ (ix3 b s (1 : Fin 2)) rfl rfl (ix3 b s (0 : Fin 1))
    (fun a => match a with | ⟨0, _⟩ => fun _ => rfl | ⟨1, _⟩ => fun _ => rfl | ⟨2, _⟩ => fun h => absurd rfl h) rfl]
  rw [val_main_v54_apply]
  have e : idx_main_v54 (ix3 b s (0 : Fin 1)) = ix2 b s := by
    funext a; match a with | ⟨0, _⟩ => rfl | ⟨1, _⟩ => rfl
  rw [e, v51_apply]

/-- On operand axis 0 the window starts at the batch number. -/
theorem start0 (M : S4x4096.Idx → BitVec 1) (b : Fin 4) (s : Fin 2048) (j : Fin 2048) :
    scatter_S4x4096x2048_S4x2048x2_S4x2048x2048_2_01_01_2.start (ix3 b s j) (val_main_v55 (F := Ideal) M) ⟨0, by decide⟩ = (b.val : Int) := by
  unfold ScatterDims.start
  rw [dif_pos (by decide)]
  have e : scatter_S4x4096x2048_S4x2048x2_S4x2048x2048_2_01_01_2.siIdx (ix3 b s j)
      ⟨List.idxOf (⟨0, by decide⟩ : Fin 3) scatter_S4x4096x2048_S4x2048x2_S4x2048x2048_2_01_01_2.scatterDimsToOperandDims, List.idxOf_lt_length_iff.2 (by decide)⟩
      = ix3 b s (0 : Fin 2) := by
    funext a; match a with | ⟨0, _⟩ => rfl | ⟨1, _⟩ => rfl | ⟨2, _⟩ => rfl
  rw [e, v55_apply0, StableHlo.Predicate.toInt_ofNat_small _ (by have := b.isLt; omega)]

/-- On operand axis 1 the window starts at the place's position. -/
theorem start1 (M : S4x4096.Idx → BitVec 1) (b : Fin 4) (s : Fin 2048) (j : Fin 2048) :
    scatter_S4x4096x2048_S4x2048x2_S4x2048x2048_2_01_01_2.start (ix3 b s j) (val_main_v55 (F := Ideal) M) ⟨1, by decide⟩
      = ((place M b (up s)).val : Int) := by
  unfold ScatterDims.start
  rw [dif_pos (by decide)]
  have e : scatter_S4x4096x2048_S4x2048x2_S4x2048x2048_2_01_01_2.siIdx (ix3 b s j)
      ⟨List.idxOf (⟨1, by decide⟩ : Fin 3) scatter_S4x4096x2048_S4x2048x2_S4x2048x2048_2_01_01_2.scatterDimsToOperandDims, List.idxOf_lt_length_iff.2 (by decide)⟩
      = ix3 b s (1 : Fin 2) := by
    funext a; match a with | ⟨0, _⟩ => rfl | ⟨1, _⟩ => rfl | ⟨2, _⟩ => rfl
  rw [e, v55_apply1, StableHlo.Predicate.toInt_ofNat_small _ (by have := (place M b (up s)).isLt; omega)]

/-- Operand axis 2 is not an indexed axis: the window starts at 0. -/
theorem start2 {w : Nat} (jj : S4x2048x2048.Idx) (idx : IVec S4x2048x2 w) :
    scatter_S4x4096x2048_S4x2048x2_S4x2048x2048_2_01_01_2.start jj idx ⟨2, by decide⟩ = 0 := by
  unfold ScatterDims.start
  rw [dif_neg (by decide)]

/-- Operand axes 0 and 1 are inserted: the window coordinate there is 0. -/
theorem window0 (jj : S4x2048x2048.Idx) :
    scatter_S4x4096x2048_S4x2048x2_S4x2048x2048_2_01_01_2.window jj ⟨0, by decide⟩ = 0 := by
  unfold ScatterDims.window
  rw [dif_neg (by decide)]
theorem window1 (jj : S4x2048x2048.Idx) :
    scatter_S4x4096x2048_S4x2048x2_S4x2048x2048_2_01_01_2.window jj ⟨1, by decide⟩ = 0 := by
  unfold ScatterDims.window
  rw [dif_neg (by decide)]
/-- Operand axis 2 carries the update's window coordinate. -/
theorem window2 (jj : S4x2048x2048.Idx) :
    scatter_S4x4096x2048_S4x2048x2_S4x2048x2048_2_01_01_2.window jj ⟨2, by decide⟩ = (jj 2).val := by
  unfold ScatterDims.window
  rw [dif_pos (by decide)]
  rfl

/-- An update index whose start plus window coordinate is, on every operand axis, the coordinate of an operand index i
    lands on i. -/
theorem resultIdx?_eq_some {s si u : Shape} {w : Nat} (d : ScatterDims s si u) (j : u.Idx) (idx : IVec si w) (i : s.Idx)
    (h : ∀ a, d.start j idx a + d.window j a = ((i a).val : Int)) : d.resultIdx? j idx = some i := by
  have hall : ∀ a, 0 ≤ d.start j idx a + d.window j a ∧ d.start j idx a + d.window j a < s.size a := fun a => by
    rw [h a]; have := (i a).isLt; omega
  unfold ScatterDims.resultIdx?
  rw [dif_pos hall]
  refine congrArg some (funext fun a => Fin.ext ?_)
  show (d.start j idx a + d.window j a).toNat = (i a).val
  rw [h a]; omega

/-- Where update element (b, s, j) lands. -/
theorem resultIdx_eq (M : S4x4096.Idx → BitVec 1) (b : Fin 4) (s : Fin 2048) (j : Fin 2048) :
    scatter_S4x4096x2048_S4x2048x2_S4x2048x2048_2_01_01_2.resultIdx? (ix3 b s j) (val_main_v55 (F := Ideal) M)
      = some (ix3 b (place M b (up s)) j) := by
  have hs1 := start1 M b s j
  generalize place M b (up s) = p at hs1 ⊢
  have hs0 := start0 M b s j
  have hs2 := start2 (ix3 b s j) (val_main_v55 (F := Ideal) M)
  have hw0 := window0 (ix3 b s j)
  have hw1 := window1 (ix3 b s j)
  have hw2 : scatter_S4x4096x2048_S4x2048x2_S4x2048x2048_2_01_01_2.window (ix3 b s j) ⟨2, by decide⟩ = j.val := window2 (ix3 b s j)
  refine resultIdx?_eq_some _ _ _ _ (fun a => ?_)
  match a with
  | ⟨0, _⟩ =>
    rw [hs0, hw0]
    show (b.val : Int) + ((0 : Nat) : Int) = (b.val : Int)
    omega
  | ⟨1, _⟩ =>
    rw [hs1, hw1]
    show (p.val : Int) + ((0 : Nat) : Int) = (p.val : Int)
    omega
  | ⟨2, _⟩ =>
    rw [hs2, hw2]
    show (0 : Int) + ((j.val : Nat) : Int) = (j.val : Int)
    omega

/-- The value a one-bit word has as an extended real: 1 when the bit is set. -/
theorem bit_one_coe : (((1#1 : BitVec 1).toNat : ℝ) : EReal) = 1 := by
  show (((1 : ℕ) : ℝ) : EReal) = 1
  rw [Nat.cast_one, EReal.coe_one]
/-- … and 0 when it is clear. -/
theorem bit_zero_coe : (((0#1 : BitVec 1).toNat : ℝ) : EReal) = 0 := by
  show (((0 : ℕ) : ℝ) : EReal) = 0
  rw [Nat.cast_zero, EReal.coe_zero]

theorem v56_apply (X : S4x4096x2048.Idx → EReal) (M : S4x4096.Idx → BitVec 1) (Wd : S1024x2048.Idx → EReal)
    (Wu : S2048x1024.Idx → EReal) (Gd : S2048.Idx → EReal) (Gu : S1024.Idx → EReal) (b : Fin 4) (i : Fin 4096) (j : Fin 2048) :
    val_main_v56 (F := Ideal) X M Wd Wu Gd Gu (ix3 b i j) = Gat X M Wd Wu Gd Gu b i j := by
  unfold val_main_v56
  by_cases hex : ∃ s : Fin 2048, place M b (up s) = i
  · -- some kept place holds position i: every update landing on (b, i, j) is that place's
    obtain ⟨s₀, hs₀⟩ := hex
    have hall : ∀ j' : S4x2048x2048.Idx,
        scatter_S4x4096x2048_S4x2048x2_S4x2048x2048_2_01_01_2.resultIdx? j' (val_main_v55 (F := Ideal) M) = some (ix3 b i j) →
        val_main_v38 (F := Ideal) X M Wd Wu Gd Gu j' = val_main_v38 (F := Ideal) X M Wd Wu Gd Gu (ix3 b s₀ j) := by
      intro j' hj'
      obtain ⟨b', s', j'', rfl⟩ : ∃ (b' : Fin 4) (s' : Fin 2048) (j'' : Fin 2048), j' = ix3 b' s' j'' :=
        ⟨j' 0, j' 1, j' 2, eq_ix3 j'⟩
      rw [resultIdx_eq] at hj'
      have h := Option.some.inj hj'
      have e0 : b' = b := congrFun h (0 : Fin 3)
      have e1 : place M b' (up s') = i := congrFun h (1 : Fin 3)
      have e2 : j'' = j := congrFun h (2 : Fin 3)
      rw [e0] at e1
      have e3 : s' = s₀ := Fin.castLE_injective _ (place_injective M b (e1.trans hs₀.symm))
      rw [e0, e2, e3]
    rw [Cert.ScatterSet.scatter_set_hit _ _ _ _ (ix3 b i j) _ hall ⟨ix3 b s₀ j, by rw [resultIdx_eq, hs₀]⟩,
      Cert.RefRow.v38_apply, hs₀]
    unfold Gat keep
    by_cases hk : keyOf M b i = true
    · have hM : M (ix2 b i) = 1#1 := of_decide_eq_true hk
      have hc : cnt (keyOf M b) i ≤ 2048 := (place_prefix_iff M b i hk).1 ⟨s₀, hs₀⟩
      rw [hM, bit_one_coe, one_mul, hk, decide_eq_true hc]
      rfl
    · have hk' : keyOf M b i = false := by simpa using hk
      have hM : M (ix2 b i) = 0#1 := eq_zero_of_ne_one (fun h => hk (decide_eq_true h))
      rw [hM, bit_zero_coe, zero_mul, hk']
      rfl
  · -- no kept place holds position i: the operand's zero stays, and position i is not kept
    have hno : ∀ j' : S4x2048x2048.Idx,
        scatter_S4x4096x2048_S4x2048x2_S4x2048x2048_2_01_01_2.resultIdx? j' (val_main_v55 (F := Ideal) M) ≠ some (ix3 b i j) := by
      intro j' hj'
      obtain ⟨b', s', j'', rfl⟩ : ∃ (b' : Fin 4) (s' : Fin 2048) (j'' : Fin 2048), j' = ix3 b' s' j'' :=
        ⟨j' 0, j' 1, j' 2, eq_ix3 j'⟩
      rw [resultIdx_eq] at hj'
      have h := Option.some.inj hj'
      have e0 : b' = b := congrFun h (0 : Fin 3)
      have e1 : place M b' (up s') = i := congrFun h (1 : Fin 3)
      rw [e0] at e1
      exact hex ⟨s', e1⟩
    rw [Cert.ScatterSet.scatter_set_miss _ _ _ _ _ hno, val_main_v41_apply, val_main_cst_5_apply, Ideal.ofBits_def,
      Ideal.ofBits_zero_f32]
    have hkeep : keep M b i = false := by
      unfold keep
      by_cases hk : keyOf M b i = true
      · have hc : ¬ cnt (keyOf M b) i ≤ 2048 := fun hc => hex ((place_prefix_iff M b i hk).2 hc)
        rw [hk, decide_eq_false hc]
        rfl
      · have hk' : keyOf M b i = false := by simpa using hk
        rw [hk']
        rfl
    unfold Gat
    rw [hkeep]
    rfl

/-- The reference's result is the specification. -/
theorem ref_eq_G (X : S4x4096x2048.Idx → EReal) (M : S4x4096.Idx → BitVec 1) (Wd : S1024x2048.Idx → EReal)
    (Wu : S2048x1024.Idx → EReal) (Gd : S2048.Idx → EReal) (Gu : S1024.Idx → EReal) :
    val_main_v56 (F := Ideal) X M Wd Wu Gd Gu = G X M Wd Wu Gd Gu :=
  eq_G_of_apply X M Wd Wu Gd Gu _ (v56_apply X M Wd Wu Gd Gu)

end Cert.RefScatter

end
-- ==== Proof.LibMatRows.lean ====
/-
  General lemmas for matrices read at coordinates on the extended reals, for any extents.

  * A product with the plain dimension numbers (contract the left operand's columns with the right operand's rows, no
    batch axis) read at (p, q) is the sum over k of l (p, k) · r (k, q): for a kernel's matrix product into a zero
    accumulator and for the host's dot_general alike. A printed dimension record with these numbers IS the library's
    plain record (the fields agree and the well-formedness proof is a proposition), so the lemmas take the record and
    that equation.
  * A sum along the rows of a rank-2 array, read at row p, is the sum over the columns k of the array at (p, k): for a
    vector reduction and for the host's reduce (which adds its initial value) alike.
-/
import Idealize.ShloMosaic.PureOps.Ideal
import Idealize.ShloMosaic.PureOps.Ideal.Laws
import Idealize.ShloMosaic.Lib.ValueIdx

noncomputable section

namespace Cert.LibMatRows

open Idealize.ShloMosaic Idealize.ShloMosaic.ValueIdx
open scoped BigOperators

/-! ## The plain product -/

section Plain
variable (M K N : Nat)

/-- The plain record contracts one axis of extent K. -/
abbrev kEquiv : (DotDims.plain M K N).contr.Idx ≃ Fin K := contrEquiv1 (DotDims.plain M K N) K rfl rfl

/-- The left operand is read at (p, k). -/
theorem plain_lhsIdx (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single (cl := 1) rfl (ix2 p q) ((kEquiv M K N).symm k)).trans
      (contrEquiv1_symm_val (DotDims.plain M K N) K rfl rfl k)

/-- The right operand is read at (k, q). -/
theorem plain_rhsIdx (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single (cr := 0) rfl (ix2 p q) ((kEquiv M K N).symm k)).trans
      (contrEquiv1_symm_val (DotDims.plain M K N) K rfl rfl k)
  | ⟨1, _⟩ => rfl

/-- The contraction's sum, re-indexed by the contracted coordinate. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (kEquiv M K N).symm]
  exact Finset.sum_congr rfl fun k _ => by rw [plain_lhsIdx, plain_rhsIdx]

end Plain

/-- A kernel's matrix product into the zero accumulator, with plain dimension numbers, at (p, q). -/
theorem matmul_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum M K N l r p q)

/-- The host's dot_general with plain dimension numbers, at (p, q). -/
theorem dotGeneral_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  exact (Ideal.dotGeneral_apply _ prec .single l r (ix2 p q)).trans (plain_sum M K N l r p q)

/-! ## Row sums -/

/-- The index a row-sum reads: row p, column k. -/
theorem lift_rows {A B : Nat} (h : (⟨2, ![A, B]⟩ : Shape).Reduces [1] ⟨1, ![A]⟩) (p : Fin A) (k : Fin B) :
    h.lift (ix1 p) k = ix2 p k := by
  funext a
  apply Fin.ext
  match a with
  | ⟨0, _⟩ => rfl
  | ⟨1, _⟩ => rfl

/-- A vector reduction by addition along the rows, at row p. -/
theorem multiReduction_rows_apply {A B : Nat} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) :=
  (Ideal.multiReduction_add_single src acc h hφ hacc (ix1 p)).trans
    (Finset.sum_congr rfl fun k _ => congrArg src (lift_rows h p k))

/-- The host's reduce by addition along the rows, at row p: the initial value plus the row's sum. -/
theorem hostReduceAdd_rows_apply {A B : Nat} {φ : FTy} {u : Shape} (x : FVec Ideal ⟨2, ![A, B]⟩ φ) (init : u.Idx → Ideal φ)
    (h' : (⟨2, ![A, B]⟩ : Shape).ReducesTo [1] ⟨1, ![A]⟩) (hu : 0 < u.numel)
    (h : (⟨2, ![A, B]⟩ : Shape).Reduces [1] ⟨1, ![A]⟩) (p : Fin A) :
    Host.reduceAdd x init h' hu (ix1 p) = init (Shape.Idx.first hu) + ∑ k : Fin B, x (ix2 p k) :=
  (Ideal.hostReduceAdd_single h' h x (init (Shape.Idx.first hu)) (ix1 p)).trans
    (congrArg (init (Shape.Idx.first hu) + ·) (Finset.sum_congr rfl fun k _ => congrArg x (lift_rows h p k)))

end Cert.LibMatRows

end
-- ==== Proof.KerRow.lean ====
/-
  What the kernel's body leaves in its output block, entry by entry.

  The body loads the 512 × 2048 block of rows, the select column, the two gain rows and the two transposed weight
  blocks whole, and stores one 512 × 2048 value. Entry (r, j) of that value is the row function of row r of the block
  — normalise, gain, project down through the transposed w_down block, normalise, gain, project up through the
  transposed w_up block (a change of float format is the identity on the extended reals, a matrix product into the zero
  accumulator is the sum over the contracted index, a lane reduction is the sum of the row) — times the select column's
  entry r.
-/
import proofs.«156894_j48301202210919_1_alg».proof.Proof.Gen.KernelIdeal.Frame
import proofs.«156894_j48301202210919_1_alg».proof.Proof.LibMatRows
import proofs.«156894_j48301202210919_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KerRow

open Idealize.ShloMosaic Idealize.ShloMosaic.ValueIdx Cert.KernelIdeal Cert.KernelIdeal.Gen Cert.Spec Cert.LibMatRows
open scoped BigOperators

/-- An [a] array cast to [a, 1] reads, at (i, u), the operand at i, whatever the unit coordinate u. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first product's dimension numbers are the plain ones: rows of the left against columns of the right. -/
private theorem dims_down : dot_S512x2048_S2048x1024_S512x1024_1_0_0_1_n_n = DotDims.plain 512 2048 1024 := rfl

/-- So are the second product's. -/
private theorem dims_up : dot_S512x1024_S1024x2048_S512x2048_1_0_0_1_n_n = DotDims.plain 512 1024 2048 := rfl

/-- The scale column: the row's squares summed along the lanes, kept as a column, divided by the word n of the row's
    length, ε added, and the reciprocal root taken, read at (p, u), is the scale of the row's sum of squares. -/
private theorem scaleCol_apply {A B : ℕ} (src : FVec Ideal ⟨2, ![A, B]⟩ .f32) (n : BitVec 32)
    (hr : (⟨2, ![A, B]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (p : Fin A) (u : Fin 1) :
    rsqrt (addf (divf (shapeCast ⟨2, ![A, 1]⟩ (multiReduction .add [1] ⟨1, ![A]⟩ (mulf src src) 0x00000000#32 hr hφ hacc) hc)
        (broadcast ⟨2, ![A, 1]⟩ (Scalar.ofBits .f32 n))) (broadcast ⟨2, ![A, 1]⟩ (Scalar.ofBits .f32 0x3727C5AC#32))) (ix2 p u)
      = scale (∑ k : Fin B, src (ix2 p k) * src (ix2 p k)) (Ideal.ofBits .f32 n) := by
  show Ideal.rsqrt (Ideal.div (shapeCast ⟨2, ![A, 1]⟩ (multiReduction .add [1] ⟨1, ![A]⟩ (mulf src src) 0x00000000#32 hr hφ hacc) hc (ix2 p u))
      (Ideal.ofBits .f32 n) + Ideal.ofBits .f32 0x3727C5AC#32) = _
  rw [shapeCast_a_a1_apply, multiReduction_rows_apply]
  rfl

/-- A block with every row multiplied by its scale column and by the gain row, read at (p, q). -/
private theorem normed_apply {A B : ℕ} (src : FVec Ideal ⟨2, ![A, B]⟩ .f32) (g : FVec Ideal ⟨2, ![1, B]⟩ .f32) (n : BitVec 32)
    (hr : (⟨2, ![A, B]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, B]⟩)
    (hg : (⟨2, ![1, B]⟩ : Shape).Broadcasts ⟨2, ![A, B]⟩) (p : Fin A) (q : Fin B) :
    mulf (mulf src (broadcastTo ⟨2, ![A, B]⟩
        (rsqrt (addf (divf (shapeCast ⟨2, ![A, 1]⟩ (multiReduction .add [1] ⟨1, ![A]⟩ (mulf src src) 0x00000000#32 hr hφ hacc) hc)
          (broadcast ⟨2, ![A, 1]⟩ (Scalar.ofBits .f32 n))) (broadcast ⟨2, ![A, 1]⟩ (Scalar.ofBits .f32 0x3727C5AC#32)))) hb))
        (broadcastTo ⟨2, ![A, B]⟩ g hg) (ix2 p q)
      = src (ix2 p q) * scale (∑ k : Fin B, src (ix2 p k) * src (ix2 p k)) (Ideal.ofBits .f32 n) * g (ix2 (0 : Fin 1) q) := by
  rw [mulf_apply, mulf_apply, broadcastTo_a1_ab_apply, broadcastTo_1b_ab_apply, scaleCol_apply]

/-- One stage of the row function at vector level: every row of the block normalised and gained, its format changed, and
    multiplied into the zero accumulator against a weight block with the plain dimension numbers. Read at (p, q), with v
    the block's row p, it is the sum over k of v k · scale(Σ v²) · g k · w (k, q). -/
private theorem stage_apply {A K N : ℕ} (D : DotDims ⟨2, ![A, K]⟩ ⟨2, ![K, N]⟩ ⟨2, ![A, N]⟩) (hD : D = DotDims.plain A K N)
    (src : FVec Ideal ⟨2, ![A, K]⟩ .f32) (g : FVec Ideal ⟨2, ![1, K]⟩ .f32) (w : FVec Ideal ⟨2, ![K, N]⟩ .bf16) (n : BitVec 32)
    (hr : (⟨2, ![A, K]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, K]⟩)
    (hg : (⟨2, ![1, K]⟩ : Shape).Broadcasts ⟨2, ![A, K]⟩) (hlt : FTy.bits .bf16 < FTy.bits .f32)
    (p : Fin A) (v : Fin K → EReal) (hv : ∀ k : Fin K, src (ix2 p k) = v k) (q : Fin N) :
    matmul D none
        (truncf .bf16 (mulf (mulf src (broadcastTo ⟨2, ![A, K]⟩
          (rsqrt (addf (divf (shapeCast ⟨2, ![A, 1]⟩ (multiReduction .add [1] ⟨1, ![A]⟩ (mulf src src) 0x00000000#32 hr hφ hacc) hc)
            (broadcast ⟨2, ![A, 1]⟩ (Scalar.ofBits .f32 n))) (broadcast ⟨2, ![A, 1]⟩ (Scalar.ofBits .f32 0x3727C5AC#32)))) hb))
          (broadcastTo ⟨2, ![A, K]⟩ g hg)) hlt)
        w (constant (F := Ideal) ⟨2, ![A, N]⟩ .f32 0x00000000#32) (ix2 p q)
      = ∑ k : Fin K, v k * scale (∑ k' : Fin K, v k' * v k') (Ideal.ofBits .f32 n) * g (ix2 (0 : Fin 1) k) * w (ix2 k q) := by
  refine (matmul_plain_apply D hD none _ w p q).trans ?_
  refine Finset.sum_congr rfl fun k _ => congrArg (· * w (ix2 k q)) ?_
  refine (truncf_apply _ hlt (ix2 p k)).trans ?_
  refine (normed_apply src g n hr hφ hacc hc hb hg p k).trans ?_
  rw [hv k, Finset.sum_congr rfl fun k' _ => show src (ix2 p k') * src (ix2 p k') = v k' * v k' by rw [hv k']]

/-- The value the body computes before the select column is applied, at (r, j). -/
theorem pay2_apply (x0 : Vec Ideal S512x2048 .f32) (x2 : Vec Ideal S1x2048 .f32) (x4 : Vec Ideal S2048x1024 .bf16)
    (x3 : Vec Ideal S1x1024 .f32) (x5 : Vec Ideal S1024x2048 .bf16) (r : Fin 512) (j : Fin 2048) :
    k0_pay2 (F := Ideal) x0 x2 x4 x3 x5 (ix2 r j)
      = rowUp (fun d => x0 (ix2 r d)) (fun d => x2 (ix2 (0 : Fin 1) d)) (fun o d => x4 (ix2 d o))
          (fun o => x3 (ix2 (0 : Fin 1) o)) (fun j' o => x5 (ix2 o j')) j := by
  unfold k0_pay2
  simp only [shapeCast_self]
  refine (stage_apply _ dims_up _ x3 x5 _ _ _ _ _ _ _ _ r
    (down (fun d => x0 (ix2 r d)) (fun d => x2 (ix2 (0 : Fin 1) d)) (fun o d => x4 (ix2 d o)))
    (fun o => stage_apply _ dims_down x0 x2 x4 _ _ _ _ _ _ _ _ r (fun d => x0 (ix2 r d)) (fun _ => rfl) o) j).trans ?_
  rfl

/-- The block the body leaves, at (r, j). -/
theorem out_apply (x0 : Vec Ideal S512x2048 .f32) (x1 : Vec Ideal S512x1 .f32) (x2 : Vec Ideal S1x2048 .f32)
    (x3 : Vec Ideal S1x1024 .f32) (x4 : Vec Ideal S2048x1024 .bf16) (x5 : Vec Ideal S1024x2048 .bf16)
    (r : Fin 512) (j : Fin 2048) :
    out0_6 (F := Ideal) x0 x1 x2 x3 x4 x5 (ix2 r j)
      = rowUp (fun d => x0 (ix2 r d)) (fun d => x2 (ix2 (0 : Fin 1) d)) (fun o d => x4 (ix2 d o))
          (fun o => x3 (ix2 (0 : Fin 1) o)) (fun j' o => x5 (ix2 o j')) j * x1 (ix2 r (0 : Fin 1)) := by
  have hz : (![0, 0] : Fin 2 → Nat) = fun _ => 0 := funext fun a => by fin_cases a <;> rfl
  unfold out0_6
  rw [View.canon_unit_zero hz]
  simp only [View.ld_unit_zero (S := S512x2048) hz, View.ld_unit_zero (S := S1x2048) hz,
    View.ld_unit_zero (S := S2048x1024) hz, View.ld_unit_zero (S := S1x1024) hz,
    View.ld_unit_zero (S := S1024x2048) hz, View.ld_unit_zero (S := S512x1) hz]
  unfold k0_pay1
  simp only [shapeCast_self]
  rw [mulf_apply, broadcastTo_a1_ab_apply, pay2_apply]

end Cert.KerRow

end
-- ==== Proof.KerBlocks.lean ====
/-
  From the kernel's blocks to its whole output array.

  Grid point t stages rows 512·t … 512·t + 511 of the flattened input and of the select column, and the two gain rows
  and the two transposed weight arrays whole; it writes back rows 512·t … 512·t + 511 of the output. Every entry of the
  block it writes is one function of the arrays the region finds, read at the entry's own row (`flatAt`), so the 32
  written blocks, which tile the 16384 rows, make the output array that function at every index (`final_flat`).
-/
import proofs.«156894_j48301202210919_1_alg».proof.Proof.Gen.KernelIdeal.Frame
import proofs.«156894_j48301202210919_1_alg».proof.Proof.KerRow
import proofs.«156894_j48301202210919_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KerBlocks

open Cert.KernelIdeal Cert.KernelIdeal.Gen Cert.Spec

variable (m : (ℓ : Loc nD τ sig) → Buf (Elt Ideal) ℓ)

/-- Entry (r, j) of the flat output from the six arrays the region finds: the row function of row r, times the select
    column at r. -/
def flatAt (Xf : S16384x2048.Idx → EReal) (Sel : S16384x1.Idx → EReal) (Gd : S1x2048.Idx → EReal)
    (Gu : S1x1024.Idx → EReal) (WdT : S2048x1024.Idx → EReal) (WuT : S1024x2048.Idx → EReal)
    (r : Fin 16384) (j : Fin 2048) : EReal :=
  rowUp (fun d => Xf (ix2 r d)) (fun d => Gd (ix2 (0 : Fin 1) d)) (fun o d => WdT (ix2 d o))
      (fun o => Gu (ix2 (0 : Fin 1) o)) (fun j' o => WuT (ix2 o j')) j * Sel (ix2 r (0 : Fin 1))

/-- The flat output array. -/
def flatOut (Xf : S16384x2048.Idx → EReal) (Sel : S16384x1.Idx → EReal) (Gd : S1x2048.Idx → EReal)
    (Gu : S1x1024.Idx → EReal) (WdT : S2048x1024.Idx → EReal) (WuT : S1024x2048.Idx → EReal) :
    S16384x2048.Idx → EReal :=
  fun y => flatAt Xf Sel Gd Gu WdT WuT (y 0) (y 1)

theorem flatOut_apply (Xf : S16384x2048.Idx → EReal) (Sel : S16384x1.Idx → EReal) (Gd : S1x2048.Idx → EReal)
    (Gu : S1x1024.Idx → EReal) (WdT : S2048x1024.Idx → EReal) (WuT : S1024x2048.Idx → EReal)
    (r : Fin 16384) (j : Fin 2048) :
    flatOut Xf Sel Gd Gu WdT WuT (ix2 r j) = flatAt Xf Sel Gd Gu WdT WuT r j := rfl

/-- The index maps over the grid: the row-blocked windows (the input rows, the select column, the output) sit at block
    (t, 0); the four whole windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## The six input blocks at a point, read off the arrays -/

/-- The input block at point t is rows 512·t … 512·t + 511 of the flattened input. -/
theorem iblk0_apply (c : Dev nD) (t : Fin cfg0.N) (x : S512x2048.Idx) (k : S16384x2048.Idx)
    (hk0 : (k 0).val = 512 * t.val + (x 0).val) (hk1 : (k 1).val = (x 1).val) :
    (iblk m c 0 t : Vec Ideal S512x2048 .f32) x = (V m c main_v7 : S16384x2048.Idx → EReal) k := by
  obtain ⟨⟨e0, e1⟩, -⟩ := idx_facts t
  unfold iblk
  rw [View.read_apply]
  show V m c main_v7 _ = V m c main_v7 _
  congr 1
  funext a
  apply Fin.ext
  match a with
  | ⟨0, _⟩ => show win0_0.index t 0 * 512 + 1 * (x 0).val = (k 0).val; rw [e0, hk0]; omega
  | ⟨1, _⟩ => show win0_0.index t 1 * 2048 + 1 * (x 1).val = (k 1).val; rw [e1, hk1]; omega

/-- The select block at point t is rows 512·t … 512·t + 511 of the select column. -/
theorem iblk1_apply (c : Dev nD) (t : Fin cfg0.N) (x : S512x1.Idx) (k : S16384x1.Idx)
    (hk0 : (k 0).val = 512 * t.val + (x 0).val) (hk1 : (k 1).val = (x 1).val) :
    (iblk m c 1 t : Vec Ideal S512x1 .f32) x = (V m c main_v6 : S16384x1.Idx → EReal) k := by
  obtain ⟨-, ⟨e0, e1⟩, -⟩ := idx_facts t
  unfold iblk
  rw [View.read_apply]
  show V m c main_v6 _ = V m c main_v6 _
  congr 1
  funext a
  apply Fin.ext
  match a with
  | ⟨0, _⟩ => show win0_1.index t 0 * 512 + 1 * (x 0).val = (k 0).val; rw [e0, hk0]; omega
  | ⟨1, _⟩ => show win0_1.index t 1 * 1 + 1 * (x 1).val = (k 1).val; rw [e1, hk1]; omega

/-- The first gain row's block is the whole row, at every point. -/
theorem iblk2_eq (c : Dev nD) (t : Fin cfg0.N) :
    (iblk m c 2 t : Vec Ideal S1x2048 .f32) = (V m c main_v12 : S1x2048.Idx → EReal) := by
  obtain ⟨-, -, ⟨e0, e1⟩, -⟩ := idx_facts t
  funext x
  unfold iblk
  rw [View.read_apply]
  show V m c main_v12 _ = V m c main_v12 _
  congr 1
  funext a
  apply Fin.ext
  match a with
  | ⟨0, _⟩ => show win0_2.index t 0 * 1 + 1 * (x 0).val = (x 0).val; rw [e0]; omega
  | ⟨1, _⟩ => show win0_2.index t 1 * 2048 + 1 * (x 1).val = (x 1).val; rw [e1]; omega

/-- The second gain row's block is the whole row, at every point. -/
theorem iblk3_eq (c : Dev nD) (t : Fin cfg0.N) :
    (iblk m c 3 t : Vec Ideal S1x1024 .f32) = (V m c main_v13 : S1x1024.Idx → EReal) := by
  obtain ⟨-, -, -, ⟨e0, e1⟩, -⟩ := idx_facts t
  funext x
  unfold iblk
  rw [View.read_apply]
  show V m c main_v13 _ = V m c main_v13 _
  congr 1
  funext a
  apply Fin.ext
  match a with
  | ⟨0, _⟩ => show win0_3.index t 0 * 1 + 1 * (x 0).val = (x 0).val; rw [e0]; omega
  | ⟨1, _⟩ => show win0_3.index t 1 * 1024 + 1 * (x 1).val = (x 1).val; rw [e1]; omega

/-- The transposed down-projection's block is the whole array, at every point. -/
theorem iblk4_eq (c : Dev nD) (t : Fin cfg0.N) :
    (iblk m c 4 t : Vec Ideal S2048x1024 .bf16) = (V m c main_v9 : S2048x1024.Idx → EReal) := by
  obtain ⟨-, -, -, -, ⟨e0, e1⟩, -⟩ := idx_facts t
  funext x
  unfold iblk
  rw [View.read_apply]
  show V m c main_v9 _ = V m c main_v9 _
  congr 1
  funext a
  apply Fin.ext
  match a with
  | ⟨0, _⟩ => show win0_4.index t 0 * 2048 + 1 * (x 0).val = (x 0).val; rw [e0]; omega
  | ⟨1, _⟩ => show win0_4.index t 1 * 1024 + 1 * (x 1).val = (x 1).val; rw [e1]; omega

/-- The transposed up-projection's block is the whole array, at every point. -/
theorem iblk5_eq (c : Dev nD) (t : Fin cfg0.N) :
    (iblk m c 5 t : Vec Ideal S1024x2048 .bf16) = (V m c main_v11 : S1024x2048.Idx → EReal) := by
  obtain ⟨-, -, -, -, -, ⟨e0, e1⟩, -⟩ := idx_facts t
  funext x
  unfold iblk
  rw [View.read_apply]
  show V m c main_v11 _ = V m c main_v11 _
  congr 1
  funext a
  apply Fin.ext
  match a with
  | ⟨0, _⟩ => show win0_5.index t 0 * 1024 + 1 * (x 0).val = (x 0).val; rw [e0]; omega
  | ⟨1, _⟩ => show win0_5.index t 1 * 2048 + 1 * (x 1).val = (x 1).val; rw [e1]; omega

/-! ## What a point writes back -/

/-- An entry of the block the body leaves, over blocks that are the arrays read at the entry's own row: it is the flat
    output at the index i whose row is the block's row in the array and whose column is the entry's. -/
theorem out_entry (Xf : S16384x2048.Idx → EReal) (Sel : S16384x1.Idx → EReal) (Gd : S1x2048.Idx → EReal)
    (Gu : S1x1024.Idx → EReal) (WdT : S2048x1024.Idx → EReal) (WuT : S1024x2048.Idx → EReal)
    (x0 : Vec Ideal S512x2048 .f32) (x1 : Vec Ideal S512x1 .f32) (x2 : Vec Ideal S1x2048 .f32)
    (x3 : Vec Ideal S1x1024 .f32) (x4 : Vec Ideal S2048x1024 .bf16) (x5 : Vec Ideal S1024x2048 .bf16)
    (y : S512x2048.Idx) (i : S16384x2048.Idx) (hj : i 1 = y 1)
    (h0 : ∀ d : Fin 2048, x0 (ix2 (y 0) d) = Xf (ix2 (i 0) d))
    (h1 : x1 (ix2 (y 0) (0 : Fin 1)) = Sel (ix2 (i 0) (0 : Fin 1)))
    (h2 : x2 = Gd) (h3 : x3 = Gu) (h4 : x4 = WdT) (h5 : x5 = WuT) :
    out0_6 (F := Ideal) x0 x1 x2 x3 x4 x5 y = flatOut Xf Sel Gd Gu WdT WuT i := by
  subst h2 h3 h4 h5
  have e := Cert.KerRow.out_apply x0 x1 x2 x3 x4 x5 (y 0) (y 1)
  refine ((congrArg (out0_6 (F := Ideal) x0 x1 x2 x3 x4 x5) (eq_ix2 y)).trans e).trans ?_
  show _ = flatAt Xf Sel x2 x3 x4 x5 (i 0) (i 1)
  unfold flatAt
  rw [hj, h1, funext h0]

/-- What point t writes back is block t of the flat output of the arrays the region finds. -/
theorem flushed_eq (c : Dev nD) (t : Fin cfg0.N) :
    (dats m 0 c).flushed 6 t = ((cfg0.win 6).blk t).view.read (Elt Ideal)
      (flatOut (V m c main_v7) (V m c main_v6) (V m c main_v12) (V m c main_v13) (V m c main_v9) (V m c main_v11)) := by
  show (cfg0.win 6).cut (grid0.coords t) ((dats m 0 c).after 6 t) = _
  rw [after0_6]
  obtain ⟨-, -, -, -, -, -, ⟨e0, e1⟩⟩ := idx_facts t
  funext y
  rw [View.read_apply]
  have hi0 : ((((cfg0.win 6).blk t).view.emb y) 0).val = 512 * t.val + (y 0).val := by
    show win0_6.index t 0 * 512 + 1 * (y 0).val = _; rw [e0]; omega
  have hi1 : ((((cfg0.win 6).blk t).view.emb y) 1).val = (y 1).val := by
    show win0_6.index t 1 * 2048 + 1 * (y 1).val = _; rw [e1]; omega
  exact out_entry (V m c main_v7) (V m c main_v6) (V m c main_v12) (V m c main_v13) (V m c main_v9) (V m c main_v11)
    (iblk m c 0 t) (iblk m c 1 t) (iblk m c 2 t) (iblk m c 3 t) (iblk m c 4 t) (iblk m c 5 t) y
    (((cfg0.win 6).blk t).view.emb y) (Fin.ext hi1)
    (fun d => iblk0_apply m c t _ _ hi0 rfl) (iblk1_apply m c t _ _ hi0 rfl)
    (iblk2_eq m c t) (iblk3_eq m c t) (iblk4_eq m c t) (iblk5_eq m c t)

/-! ## The written blocks cover the array -/

/-- An index of the output is in point t's block iff each coordinate is in the block's range on its axis. -/
theorem mem_blk (t : Fin cfg0.N) (i : S16384x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v14).slice (win0_6.rect t)).set ↔ _
  rw [View.set_slice_whole, Rect.mem_set_unit]
  exact Iff.rfl

/-- Row ρ of the output is written by point ρ / 512. -/
theorem cover (i : S16384x2048.Idx) :
    ∃ t : Fin cfg0.N, (cfg0.win 6).flush t = true ∧ i ∈ ((cfg0.win 6).blk t).view.set := by
  have hN : cfg0.N = 32 := N_0
  have hi0 : (i 0).val < 16384 := (i 0).isLt
  have hi1 : (i 1).val < 2048 := (i 1).isLt
  have ht : (i 0).val / 512 < cfg0.N := by rw [hN]; omega
  obtain ⟨-, -, -, -, -, -, ⟨e0, e1⟩⟩ := idx_facts ⟨(i 0).val / 512, ht⟩
  refine ⟨⟨(i 0).val / 512, ht⟩, flush0_6 _, ?_⟩
  rw [mem_blk]
  intro a
  match a with
  | ⟨0, _⟩ =>
    show win0_6.index ⟨(i 0).val / 512, ht⟩ 0 * 512 ≤ (i 0).val ∧ (i 0).val < win0_6.index ⟨(i 0).val / 512, ht⟩ 0 * 512 + 512
    rw [e0]; show (i 0).val / 512 * 512 ≤ (i 0).val ∧ (i 0).val < (i 0).val / 512 * 512 + 512; omega
  | ⟨1, _⟩ =>
    show win0_6.index ⟨(i 0).val / 512, ht⟩ 1 * 2048 ≤ (i 1).val ∧ (i 1).val < win0_6.index ⟨(i 0).val / 512, ht⟩ 1 * 2048 + 2048
    rw [e1]; omega

/-- After the region the output array is `flatOut` of the arrays the region found. -/
theorem final_flat (c : Dev nD) :
    ((dats m 0 c).arrAt 6 cfg0.N : S16384x2048.Idx → EReal)
      = flatOut (V m c main_v7) (V m c main_v6) (V m c main_v12) (V m c main_v13) (V m c main_v9) (V m c main_v11) :=
  (dats m 0 c).arrAt_eq_of_cover 6
    (flatOut (V m c main_v7) (V m c main_v6) (V m c main_v12) (V m c main_v13) (V m c main_v9) (V m c main_v11))
    (fun t _ => flushed_eq m c t) cover

end Cert.KerBlocks

end
-- ==== Proof.Cumsum.lean ====
/-
  The running count of a mask as the windowed sum the kernel's host code computes.

  The widened mask row is summed over a window of 4096 positions that ends at position i, the 4095 positions before
  the row's start padded with the initial value 0: the window covers exactly the positions 0 … i of the row, each word
  is 0 or 1, and 4096 of them cannot wrap a 32-bit word. So the sum, read as a natural number, is the number of set
  bits at positions ≤ i (`cumsum_toNat`).

  The steps: a left fold of word addition whose running value stays below 2³² has the sum of the terms' values as its
  value (`toNat_foldl_addi`); the window's position k (its row-major position: the window has one row) reads the
  operand at column i + k − 4095 when that is not negative, and the padding otherwise; and the rotation
  k ↦ (i + k + 1) mod 4096 carries the window positions k ≥ 4095 − i onto the columns j ≤ i and the others onto the
  columns j > i, so the sum of the terms is the count (`sum_window`).
-/
import Idealize.ShloMosaic.PureOps.Contract
import Idealize.ShloMosaic.Lib.StableHlo.Predicate
import proofs.«156894_j48301202210919_1_alg».proof.Proof.Spec

namespace Cert.Cumsum

open Idealize.ShloMosaic Idealize.ShloMosaic.ValueIdx Cert.Spec

/-- A left fold of word addition from `acc` whose terms' values, added to `acc`'s, stay below 2³² never wraps: its value is
    `acc`'s plus the sum of the terms' values. -/
private theorem toNat_foldl_addi_from {ι : Type} (t : ι → BitVec 32) (l : List ι) (acc : BitVec 32)
    (hb : acc.toNat + (l.map fun n => (t n).toNat).sum < 2 ^ 32) :
    (l.foldl (fun r n => IntOp.addi r (t n)) acc).toNat = acc.toNat + (l.map fun n => (t n).toNat).sum := by
  induction l generalizing acc with
  | nil => simp
  | cons a l ih =>
    rw [List.map_cons, List.sum_cons] at hb
    have h1 : (IntOp.addi acc (t a)).toNat = acc.toNat + (t a).toNat := by
      show (acc + t a).toNat = _
      rw [BitVec.toNat_add]; exact Nat.mod_eq_of_lt (by omega)
    rw [List.foldl_cons, ih _ (by rw [h1]; omega), h1, List.map_cons, List.sum_cons]; omega

/-- The same from 0, the terms' values given by `g`. -/
private theorem toNat_foldl_addi {ι : Type} (t : ι → BitVec 32) (g : ι → Nat) (l : List ι)
    (hg : ∀ n, (t n).toNat = g n) (hb : (l.map g).sum < 2 ^ 32) :
    (l.foldl (fun r n => IntOp.addi r (t n)) 0#32).toNat = (l.map g).sum := by
  have e : (fun n => (t n).toNat) = g := funext hg
  have := toNat_foldl_addi_from t l 0#32 (by rw [e]; simpa using hb)
  rw [this, e]; simp

/-- The number of elements of a list that satisfy `p` is the sum of `p`'s indicator over the list. -/
private theorem length_filter_eq_sum {ι : Type} (p : ι → Bool) (l : List ι) :
    (l.filter p).length = (l.map fun a => if p a then 1 else 0).sum := by
  induction l with
  | nil => rfl
  | cons a l ih =>
    rw [List.filter_cons, List.map_cons, List.sum_cons]
    cases p a <;> simp [ih] <;> omega

/-- The sum over the window positions k of [4095 ≤ i + k] · [key (i + k − 4095)] is the number of j ≤ i with the key:
    k ↦ (i + k + 1) mod 4096 is a bijection of the positions that takes k ≥ 4095 − i to j = i + k − 4095 ≤ i and
    k < 4095 − i to j = i + k + 1 > i. (`N` is the window's number of positions, 4096, in whatever spelling.) -/
private theorem sum_window (N : Nat) (hN : N = 4096) (key : Fin 4096 → Bool) (i : Fin 4096) (g : Fin N → Nat)
    (hg : ∀ k : Fin N, g k = if h : 4095 ≤ i.val + k.val then (if key ⟨i.val + k.val - 4095, by have := k.isLt; omega⟩ then 1 else 0) else 0) :
    ((List.finRange N).map g).sum = cnt key i := by
  subst hN
  unfold cnt
  rw [length_filter_eq_sum, ← Fin.sum_univ_def, ← Fin.sum_univ_def]
  refine Finset.sum_nbij' (fun k => ⟨(i.val + k.val + 1) % 4096, Nat.mod_lt _ (by omega)⟩)
    (fun j => ⟨(j.val + 4095 - i.val) % 4096, Nat.mod_lt _ (by omega)⟩)
    (fun _ _ => Finset.mem_univ _) (fun _ _ => Finset.mem_univ _) ?_ ?_ ?_
  · intro k _; apply Fin.ext; show ((i.val + k.val + 1) % 4096 + 4095 - i.val) % 4096 = k.val
    have := k.isLt; have := i.isLt; omega
  · intro j _; apply Fin.ext; show (i.val + ((j.val + 4095 - i.val) % 4096) + 1) % 4096 = j.val
    have := j.isLt; have := i.isLt; omega
  · intro k _
    rw [hg]
    have hk := k.isLt; have hi := i.isLt
    by_cases h : 4095 ≤ i.val + k.val
    · have e : (⟨(i.val + k.val + 1) % 4096, Nat.mod_lt _ (by omega)⟩ : Fin 4096) = ⟨i.val + k.val - 4095, by omega⟩ :=
        Fin.ext (by show (i.val + k.val + 1) % 4096 = i.val + k.val - 4095; omega)
      have hle : (⟨i.val + k.val - 4095, by omega⟩ : Fin 4096) ≤ i := by
        rw [Fin.le_def]; show i.val + k.val - 4095 ≤ i.val; omega
      rw [dif_pos h, e]
      simp only [hle, decide_true, Bool.true_and]
    · have hnle : ¬ ((⟨(i.val + k.val + 1) % 4096, Nat.mod_lt _ (by omega)⟩ : Fin 4096) ≤ i) := by
        rw [Fin.le_def]; show ¬ ((i.val + k.val + 1) % 4096 ≤ i.val); omega
      rw [dif_neg h]
      simp only [hnle, decide_false, Bool.false_and, Bool.false_eq_true, if_false]

/-- The window [1 × 4096] has 4096 positions. -/
private theorem W_numel : (⟨2, ![1, 4096]⟩ : Shape).numel = 4096 := by
  simp [Shape.numel, Fin.prod_univ_two]

/-- The window's row-major position n has coordinates (0, n). -/
private theorem W_coords (n : Fin (⟨2, ![1, 4096]⟩ : Shape).numel) :
    (((⟨2, ![1, 4096]⟩ : Shape).rowMajor.symm n) 0).val = 0 ∧ (((⟨2, ![1, 4096]⟩ : Shape).rowMajor.symm n) 1).val = n.val := by
  have e : ((⟨2, ![1, 4096]⟩ : Shape).rowMajor ((⟨2, ![1, 4096]⟩ : Shape).rowMajor.symm n)).val = n.val := by
    rw [Equiv.apply_symm_apply]
  rw [Shape.rowMajor_val_two] at e
  have h0 : (((⟨2, ![1, 4096]⟩ : Shape).rowMajor.symm n) 0).val < 1 := (((⟨2, ![1, 4096]⟩ : Shape).rowMajor.symm n) 0).isLt
  have e' : (((⟨2, ![1, 4096]⟩ : Shape).rowMajor.symm n) 0).val * 4096 + (((⟨2, ![1, 4096]⟩ : Shape).rowMajor.symm n) 1).val = n.val := e
  omega

theorem cumsum_toNat (x : SM.Idx → BitVec 32) (M : SM.Idx → BitVec 1) (hx : ∀ z, x z = (M z).setWidth 32)
    (init : (⟨0, ![]⟩ : Shape).Idx → BitVec 32) (hinit : ∀ z, init z = 0#32)
    (h : SM.ReduceWindows ![1, 4096] ![1, 1] ![0, 4095] ![0, 0] SM) (hu : 0 < (⟨0, ![]⟩ : Shape).numel)
    (b : Fin 4) (i : Fin 4096) :
    (Host.reduceWindow IntOp.addi ![1, 4096] ![1, 1] ![0, 4095] ![0, 0] x init h hu (ix2 b i)).toNat
      = cnt (keyOf M b) i := by
  unfold Host.reduceWindow
  rw [hinit]
  have hN := W_numel
  have hi := i.isLt
  have hb := b.isLt
  let g : Fin (⟨2, ![1, 4096]⟩ : Shape).numel → Nat := fun k =>
    if h : 4095 ≤ i.val + k.val then (if keyOf M b ⟨i.val + k.val - 4095, by have := k.isLt; omega⟩ then 1 else 0) else 0
  have hsum : ((List.finRange (⟨2, ![1, 4096]⟩ : Shape).numel).map g).sum = cnt (keyOf M b) i :=
    sum_window _ hN (keyOf M b) i g (fun k => rfl)
  refine (toNat_foldl_addi _ g _ ?_ ?_).trans hsum
  · -- the term at window position n: in range exactly when 4095 ≤ i + n, and then the bit at (b, i + n − 4095)
    intro n
    obtain ⟨c0, c1⟩ := W_coords n
    have hn := n.isLt
    by_cases hk : 4095 ≤ i.val + n.val
    · have hin : ∀ a : Fin SM.rank, ![0, 4095] a ≤
          (fun a => (ix2 b i (Fin.cast h.1.symm a)).val * ![1, 1] a +
            ((⟨SM.rank, ![1, 4096]⟩ : Shape).rowMajor.symm n a).val) a ∧
          (fun a => (ix2 b i (Fin.cast h.1.symm a)).val * ![1, 1] a +
            ((⟨SM.rank, ![1, 4096]⟩ : Shape).rowMajor.symm n a).val) a - ![0, 4095] a < SM.size a := by
        refine Fin.forall_fin_two.2 ⟨?_, ?_⟩
        · show 0 ≤ b.val * 1 + ((⟨2, ![1, 4096]⟩ : Shape).rowMajor.symm n 0).val ∧
            b.val * 1 + ((⟨2, ![1, 4096]⟩ : Shape).rowMajor.symm n 0).val - 0 < 4
          omega
        · show 4095 ≤ i.val * 1 + ((⟨2, ![1, 4096]⟩ : Shape).rowMajor.symm n 1).val ∧
            i.val * 1 + ((⟨2, ![1, 4096]⟩ : Shape).rowMajor.symm n 1).val - 4095 < 4096
          omega
      rw [dif_pos hin, hx, StableHlo.Predicate.toNat_setWidth_bit]
      have hidx : (fun a : Fin SM.rank => (⟨(fun a => (ix2 b i (Fin.cast h.1.symm a)).val * ![1, 1] a +
            ((⟨SM.rank, ![1, 4096]⟩ : Shape).rowMajor.symm n a).val) a - ![0, 4095] a, (hin a).2⟩ : Fin (SM.size a)))
          = ix2 b ⟨i.val + n.val - 4095, by omega⟩ := by
        funext a
        revert a
        refine Fin.forall_fin_two.2 ⟨?_, ?_⟩
        · apply Fin.ext
          show b.val * 1 + ((⟨2, ![1, 4096]⟩ : Shape).rowMajor.symm n 0).val - 0 = b.val
          omega
        · apply Fin.ext
          show i.val * 1 + ((⟨2, ![1, 4096]⟩ : Shape).rowMajor.symm n 1).val - 4095 = i.val + n.val - 4095
          omega
      rw [hidx]
      show _ = if h : 4095 ≤ i.val + n.val then (if keyOf M b ⟨i.val + n.val - 4095, _⟩ then 1 else 0) else 0
      rw [dif_pos hk]
      simp only [keyOf, decide_eq_true_eq]
    · have hnin : ¬ ∀ a : Fin SM.rank, ![0, 4095] a ≤
          (fun a => (ix2 b i (Fin.cast h.1.symm a)).val * ![1, 1] a +
            ((⟨SM.rank, ![1, 4096]⟩ : Shape).rowMajor.symm n a).val) a ∧
          (fun a => (ix2 b i (Fin.cast h.1.symm a)).val * ![1, 1] a +
            ((⟨SM.rank, ![1, 4096]⟩ : Shape).rowMajor.symm n a).val) a - ![0, 4095] a < SM.size a := by
        intro hin
        have h1 : 4095 ≤ i.val * 1 + ((⟨2, ![1, 4096]⟩ : Shape).rowMajor.symm n 1).val := (hin 1).1
        omega
      rw [dif_neg hnin]
      show (0#32).toNat = if h : 4095 ≤ i.val + n.val then (if keyOf M b ⟨i.val + n.val - 4095, _⟩ then 1 else 0) else 0
      rw [dif_neg hk]
      rfl
  · -- the sum is a count of at most 4096 positions
    rw [hsum]
    unfold cnt
    exact lt_of_le_of_lt (List.length_filter_le _ _) (by rw [List.length_finRange]; omega)

end Cert.Cumsum
-- ==== Proof.KerHost.lean ====
/-
  The arrays the kernel's region finds, entry by entry, from the program's arguments.

  Before the region the host code flattens x to 16384 × 2048 rows (row 4096·b + i is row i of batch b), reshapes the two
  gains to one-row arrays, transposes the two weight arrays (the change of float format after it is the identity on the
  extended reals), and builds the select column: the mask bit AND "the running count of set bits of the batch row, up to
  and including this position, is ≤ 2048", converted to 0 or 1 and reshaped to a column. Each is read here at one index.
-/
import proofs.«156894_j48301202210919_1_alg».proof.Proof.Gen.KernelIdeal.Frame
import proofs.«156894_j48301202210919_1_alg».proof.Proof.Spec
import proofs.«156894_j48301202210919_1_alg».proof.Proof.Cumsum
import proofs.«156894_j48301202210919_1_alg».proof.Proof.SortRank
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate

noncomputable section

open Idealize.ShloMosaic Idealize.ShloMosaic.TcCoe Idealize.SL.Sem Idealize.ShloMosaic.ValueIdx

namespace Cert.KerHost

open Cert.KernelIdeal Cert.KernelIdeal.Gen Cert.Spec

variable (m : (ℓ : Loc nD τ sig) → Buf (Elt Ideal) ℓ)

/-- Row 4096·b + i of the flattened arrays. -/
def flat (b : Fin 4) (i : Fin 4096) : Fin 16384 := ⟨b.val * 4096 + i.val, by have := b.isLt; have := i.isLt; omega⟩

/-! ## The flattened x: row 4096·b + i, column d sits at row-major position ((4096·b + i)·2048 + d) on both sides -/

open StableHlo in
/-- The flattened x is the shape cast of the argument. -/
theorem V_x_eq (c : Dev nD) :
    (V m c main_v7 : S16384x2048.Idx → EReal)
      = shapeCast S16384x2048 (m ((c : Thread nD τ).loc main_arg0) : S4x4096x2048.Idx → EReal)
          shapeCasts_S4x4096x2048_S16384x2048 := by
  dsimp only [Gen.V, Gen.V0]
  simp only [Gen.hostOps0, Gen.hostOps0_1, Gen.hostOps0_2, List.flatten_cons, List.flatten_nil, List.append_nil, List.cons_append,
    List.nil_append]
  after_results
  rfl

theorem V_x_apply (c : Dev nD) (b : Fin 4) (i : Fin 4096) (d : Fin 2048) :
    (V m c main_v7 : S16384x2048.Idx → EReal) (ix2 (flat b i) d)
      = (m ((c : Thread nD τ).loc main_arg0) : S4x4096x2048.Idx → EReal) (ix3 b i d) := by
  rw [V_x_eq]
  refine shapeCast_apply _ _ _ (ix3 b i d) ?_
  rw [Shape.rowMajor_val_three, Shape.rowMajor_val_two]
  show (b.val * 4096 + i.val) * 2048 + d.val = (b.val * 4096 + i.val) * 2048 + d.val
  rfl

/-! ## The select column

  The column is the shape cast of a 4 × 4096 array of reals: entry (b, i) is the one-bit word
  mask[b, i] AND (cumsum[b, i] ≤ 2048, compared as signed words), read as a natural number. The running sum's value is
  the count of set bits at positions ≤ i, at most 4096 < 2³¹, so the signed comparison is the comparison of the counts. -/

section SelEq
-- the windowed sum is compared by its arguments only: it stays a name on both sides of the equation
attribute [local irreducible] Idealize.ShloMosaic.Host.reduceWindow

open StableHlo in
/-- The select column as the operations' term over the mask argument. -/
theorem V_sel_eq (c : Dev nD) :
    (V m c main_v6 : S16384x1.Idx → EReal)
      = shapeCast S16384x1
          (uitofp (F := Ideal) .f32
            (andi (m ((c : Thread nD τ).loc main_arg2) : S4x4096.Idx → BitVec 1)
              (cmpi .sle
                (Host.reduceWindow IntOp.addi ![1, 4096] ![1, 1] ![0, 4095] ![0, 0]
                  (extui 32 (m ((c : Thread nD τ).loc main_arg2) : S4x4096.Idx → BitVec 1) natLt_1_32)
                  (broadcastInDim S_ ![] bcast_S_S_ (constantI S_ 32 0#32))
                  reduceWindows_S4x4096_S4x4096_w1s1p0_0_w4096s1p4095_0 h_S_)
                (broadcastInDim S4x4096 ![] bcast_S_S4x4096 (constantI S_ 32 2048#32)))) : S4x4096.Idx → EReal)
          shapeCasts_S4x4096_S16384x1 := by
  dsimp only [Gen.V, Gen.V0]
  simp only [Gen.hostOps0, Gen.hostOps0_1, Gen.hostOps0_2, List.flatten_cons, List.flatten_nil, List.append_nil, List.cons_append,
    List.nil_append]
  after_results
  rfl

end SelEq

/-- A one-bit word AND a one-bit word, read as a real number: 1 when both are set, else 0. -/
theorem andi_bit_cast (a c : BitVec 1) :
    (((IntOp.andi a c).toNat : ℝ) : EReal) = if (decide (a = 1#1) && decide (c = 1#1)) then 1 else 0 := by
  rcases BitVec.eq_zero_or_eq_one a with rfl | rfl <;> rcases BitVec.eq_zero_or_eq_one c with rfl | rfl <;>
    simp [IntOp.andi]

open StableHlo.Predicate in
theorem V_sel_apply (c : Dev nD) (b : Fin 4) (i : Fin 4096) :
    (V m c main_v6 : S16384x1.Idx → EReal) (ix2 (flat b i) (0 : Fin 1))
      = if keep (m ((c : Thread nD τ).loc main_arg2) : S4x4096.Idx → BitVec 1) b i then (1 : EReal) else 0 := by
  rw [V_sel_eq]
  -- row 4096·b + i of the column is entry (b, i) of the 4 × 4096 array
  refine (shapeCast_apply _ _ _ (ix2 b i) ?_).trans ?_
  · rw [Shape.rowMajor_val_two, Shape.rowMajor_val_two]
    show b.val * 4096 + i.val = (b.val * 4096 + i.val) * 1 + 0
    omega
  · generalize hM : (m ((c : Thread nD τ).loc main_arg2) : S4x4096.Idx → BitVec 1) = M
    -- the running sum's value is the count, and the count is at most 4096
    have hw := Cert.Cumsum.cumsum_toNat (extui 32 M natLt_1_32) M (fun z => rfl)
      (broadcastInDim S_ ![] bcast_S_S_ (constantI S_ 32 0#32)) (fun z => rfl)
      reduceWindows_S4x4096_S4x4096_w1s1p0_0_w4096s1p4095_0 h_S_ b i
    have hle : cnt (keyOf M b) i ≤ 4096 := Cert.SortRank.cnt_le _ _
    -- so the signed comparison with the word 2048 is the comparison of the count with 2048
    have hiff : (IntOp.cmpi .sle (Host.reduceWindow IntOp.addi ![1, 4096] ![1, 1] ![0, 4095] ![0, 0]
                  (extui 32 M natLt_1_32) (broadcastInDim S_ ![] bcast_S_S_ (constantI S_ 32 0#32))
                  reduceWindows_S4x4096_S4x4096_w1s1p0_0_w4096s1p4095_0 h_S_ (ix2 b i)) 2048#32 = 1#1)
          ↔ cnt (keyOf M b) i ≤ 2048 := by
      rw [sle_iff_toNat (by rw [hw]; omega) (by decide), hw]; rfl
    show (((IntOp.andi (M (ix2 b i)) (IntOp.cmpi .sle (Host.reduceWindow IntOp.addi ![1, 4096] ![1, 1] ![0, 4095] ![0, 0]
                  (extui 32 M natLt_1_32) (broadcastInDim S_ ![] bcast_S_S_ (constantI S_ 32 0#32))
                  reduceWindows_S4x4096_S4x4096_w1s1p0_0_w4096s1p4095_0 h_S_ (ix2 b i)) 2048#32)).toNat : ℝ) : EReal) = _
    rw [andi_bit_cast, decide_eq_decide.2 hiff]
    rfl

/-! ## The gains: a length-n vector as a one-row array -/

open StableHlo in
theorem V_gd_eq (c : Dev nD) :
    (V m c main_v12 : S1x2048.Idx → EReal)
      = shapeCast S1x2048 (m ((c : Thread nD τ).loc main_arg5) : S2048.Idx → EReal) shapeCasts_S2048_S1x2048 := by
  dsimp only [Gen.V, Gen.V0]
  simp only [Gen.hostOps0, Gen.hostOps0_1, Gen.hostOps0_2, List.flatten_cons, List.flatten_nil, List.append_nil, List.cons_append,
    List.nil_append]
  after_results
  rfl

theorem V_gd_apply (c : Dev nD) (d : Fin 2048) :
    (V m c main_v12 : S1x2048.Idx → EReal) (ix2 (0 : Fin 1) d)
      = (m ((c : Thread nD τ).loc main_arg5) : S2048.Idx → EReal) (ix1 d) := by
  rw [V_gd_eq]
  refine shapeCast_apply _ _ _ (ix1 d) ?_
  rw [Shape.rowMajor_val_one, Shape.rowMajor_val_two]
  show d.val = 0 * 2048 + d.val
  omega

open StableHlo in
theorem V_gu_eq (c : Dev nD) :
    (V m c main_v13 : S1x1024.Idx → EReal)
      = shapeCast S1x1024 (m ((c : Thread nD τ).loc main_arg6) : S1024.Idx → EReal) shapeCasts_S1024_S1x1024 := by
  dsimp only [Gen.V, Gen.V0]
  simp only [Gen.hostOps0, Gen.hostOps0_1, Gen.hostOps0_2, List.flatten_cons, List.flatten_nil, List.append_nil, List.cons_append,
    List.nil_append]
  after_results
  rfl

theorem V_gu_apply (c : Dev nD) (o : Fin 1024) :
    (V m c main_v13 : S1x1024.Idx → EReal) (ix2 (0 : Fin 1) o)
      = (m ((c : Thread nD τ).loc main_arg6) : S1024.Idx → EReal) (ix1 o) := by
  rw [V_gu_eq]
  refine shapeCast_apply _ _ _ (ix1 o) ?_
  rw [Shape.rowMajor_val_one, Shape.rowMajor_val_two]
  show o.val = 0 * 1024 + o.val
  omega

/-! ## The weights: the transpose, then a change of float format that is the identity on the extended reals -/

open StableHlo in
theorem V_wd_eq (c : Dev nD) :
    (V m c main_v9 : S2048x1024.Idx → EReal)
      = (truncf (F := Ideal) (φ := .f32) .bf16
          (transpose S2048x1024 [1, 0] (m ((c : Thread nD τ).loc main_arg3) : S1024x2048.Idx → EReal)
            transposes_S1024x2048_S2048x1024_1_0) bitsLt_bf16_f32 : S2048x1024.Idx → EReal) := by
  dsimp only [Gen.V, Gen.V0]
  simp only [Gen.hostOps0, Gen.hostOps0_1, Gen.hostOps0_2, List.flatten_cons, List.flatten_nil, List.append_nil, List.cons_append,
    List.nil_append]
  after_results

theorem V_wd_apply (c : Dev nD) (d : Fin 2048) (o : Fin 1024) :
    (V m c main_v9 : S2048x1024.Idx → EReal) (ix2 d o)
      = (m ((c : Thread nD τ).loc main_arg3) : S1024x2048.Idx → EReal) (ix2 o d) := by
  rw [V_wd_eq, truncf_apply]
  refine transpose_apply _ _ _ _ (ix2 o d) ?_
  intro a
  match a with
  | ⟨0, _⟩ => rfl
  | ⟨1, _⟩ => rfl

open StableHlo in
theorem V_wu_eq (c : Dev nD) :
    (V m c main_v11 : S1024x2048.Idx → EReal)
      = (truncf (F := Ideal) (φ := .f32) .bf16
          (transpose S1024x2048 [1, 0] (m ((c : Thread nD τ).loc main_arg4) : S2048x1024.Idx → EReal)
            transposes_S2048x1024_S1024x2048_1_0) bitsLt_bf16_f32 : S1024x2048.Idx → EReal) := by
  dsimp only [Gen.V, Gen.V0]
  simp only [Gen.hostOps0, Gen.hostOps0_1, Gen.hostOps0_2, List.flatten_cons, List.flatten_nil, List.append_nil, List.cons_append,
    List.nil_append]
  after_results

theorem V_wu_apply (c : Dev nD) (o : Fin 1024) (j : Fin 2048) :
    (V m c main_v11 : S1024x2048.Idx → EReal) (ix2 o j)
      = (m ((c : Thread nD τ).loc main_arg4) : S2048x1024.Idx → EReal) (ix2 j o) := by
  rw [V_wu_eq, truncf_apply]
  refine transpose_apply _ _ _ _ (ix2 j o) ?_
  intro a
  match a with
  | ⟨0, _⟩ => rfl
  | ⟨1, _⟩ => rfl

end Cert.KerHost

end
-- ==== Proof.KerFinal.lean ====
/-
  The kernel's run, read: its result array is the specification.

  After the region the host code reshapes the 16384 × 2048 output back to 4 × 4096 × 2048: entry (b, i, j) is entry
  (4096·b + i, j) of the flat output. There the flat output is the row function of row i of batch b — the flattened x,
  the reshaped gains and the transposed weights read back at the arguments — times the select column's entry, which is
  1 where the position is kept and 0 elsewhere. A product with 1 is the row value and a product with 0 is 0 on the
  extended reals, whatever the row value is; so the result is `G` of the arguments.
-/
import proofs.«156894_j48301202210919_1_alg».proof.Proof.Gen.KernelIdeal.Frame
import proofs.«156894_j48301202210919_1_alg».proof.Proof.KerBlocks
import proofs.«156894_j48301202210919_1_alg».proof.Proof.KerHost
import proofs.«156894_j48301202210919_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KerFinal

open Cert.KernelIdeal Cert.KernelIdeal.Gen Cert.Spec Cert.KerBlocks Cert.KerHost

variable (m : (ℓ : Loc nD τ sig) → Buf (Elt Ideal) ℓ) (ρ : Dev nD → PrngReg)

/-- The specification at the kernel's arguments on core c. -/
abbrev Gm (c : Dev nD) : S4x4096x2048.Idx → EReal :=
  G (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))

/-- The flat output at row 4096·b + i is the specification at (b, i). -/
theorem flat_eq_Gat (c : Dev nD) (b : Fin 4) (i : Fin 4096) (j : Fin 2048) :
    flatOut (V m c main_v7) (V m c main_v6) (V m c main_v12) (V m c main_v13) (V m c main_v9) (V m c main_v11)
        (ix2 (flat b i) j)
      = Gat (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) b i j := by
  rw [flatOut_apply]
  unfold flatAt Gat
  rw [V_sel_apply]
  have hrow :
      rowUp (fun d => (V m c main_v7 : S16384x2048.Idx → EReal) (ix2 (flat b i) d))
          (fun d => (V m c main_v12 : S1x2048.Idx → EReal) (ix2 (0 : Fin 1) d))
          (fun o d => (V m c main_v9 : S2048x1024.Idx → EReal) (ix2 d o))
          (fun o => (V m c main_v13 : S1x1024.Idx → EReal) (ix2 (0 : Fin 1) o))
          (fun j' o => (V m c main_v11 : S1024x2048.Idx → EReal) (ix2 o j')) j
        = rowUp (fun d => (m ((c : Thread nD τ).loc main_arg0) : S4x4096x2048.Idx → EReal) (ix3 b i d))
            (fun d => (m ((c : Thread nD τ).loc main_arg5) : S2048.Idx → EReal) (ix1 d))
            (fun o d => (m ((c : Thread nD τ).loc main_arg3) : S1024x2048.Idx → EReal) (ix2 o d))
            (fun o => (m ((c : Thread nD τ).loc main_arg6) : S1024.Idx → EReal) (ix1 o))
            (fun j' o => (m ((c : Thread nD τ).loc main_arg4) : S2048x1024.Idx → EReal) (ix2 j' o)) j := by
    have e0 : (fun d => (V m c main_v7 : S16384x2048.Idx → EReal) (ix2 (flat b i) d))
        = fun d => (m ((c : Thread nD τ).loc main_arg0) : S4x4096x2048.Idx → EReal) (ix3 b i d) :=
      funext fun d => V_x_apply m c b i d
    have e1 : (fun d => (V m c main_v12 : S1x2048.Idx → EReal) (ix2 (0 : Fin 1) d))
        = fun d => (m ((c : Thread nD τ).loc main_arg5) : S2048.Idx → EReal) (ix1 d) :=
      funext fun d => V_gd_apply m c d
    have e2 : (fun o d => (V m c main_v9 : S2048x1024.Idx → EReal) (ix2 d o))
        = fun o d => (m ((c : Thread nD τ).loc main_arg3) : S1024x2048.Idx → EReal) (ix2 o d) :=
      funext fun o => funext fun d => V_wd_apply m c d o
    have e3 : (fun o => (V m c main_v13 : S1x1024.Idx → EReal) (ix2 (0 : Fin 1) o))
        = fun o => (m ((c : Thread nD τ).loc main_arg6) : S1024.Idx → EReal) (ix1 o) :=
      funext fun o => V_gu_apply m c o
    have e4 : (fun j' o => (V m c main_v11 : S1024x2048.Idx → EReal) (ix2 o j'))
        = fun j' o => (m ((c : Thread nD τ).loc main_arg4) : S2048x1024.Idx → EReal) (ix2 j' o) :=
      funext fun j' => funext fun o => V_wu_apply m c o j'
    rw [e0, e1, e2, e3, e4]
  rw [hrow]
  split
  · exact mul_one _
  · exact mul_zero _

/-- The result buffer after the host code that follows the region: the flat output reshaped. -/
theorem tail_eq (c : Dev nD) :
    Pipeline.afterTail₀ cfgs (dats m) 0 (V0 m) [hostOps1] c main_v15
      = shapeCast S4x4096x2048 ((dats m 0 c).arrAt 6 cfg0.N : S16384x2048.Idx → EReal) shapeCasts_S16384x2048_S4x4096x2048 := by
  unfold Pipeline.afterTail₀
  show StableHlo.after hostOps1 _ (Proc.devRef .tc main_v15) = _
  after_results
  rw [Pipeline.withArrays_arr spec0 launch0.win.arr_inj c _ _ 6]
  rfl

/-- The reshaped array at (b, i, j) is the flat one at (4096·b + i, j). -/
theorem unflatten_apply (v : S16384x2048.Idx → EReal) (b : Fin 4) (i : Fin 4096) (j : Fin 2048) :
    shapeCast S4x4096x2048 v shapeCasts_S16384x2048_S4x4096x2048 (ix3 b i j) = v (ix2 (flat b i) j) := by
  refine shapeCast_apply v shapeCasts_S16384x2048_S4x4096x2048 (ix3 b i j) (ix2 (flat b i) j) ?_
  rw [Shape.rowMajor_val_two, Shape.rowMajor_val_three]
  rfl

/-- The result buffer is the specification. -/
theorem result_eq (c : Dev nD) :
    (Pipeline.afterTail₀ cfgs (dats m) 0 (V0 m) [hostOps1] c main_v15 : S4x4096x2048.Idx → EReal) = Gm m c := by
  refine eq_G_of_apply _ _ _ _ _ _ _ fun b i j => ?_
  rw [tail_eq, unflatten_apply, final_flat]
  exact flat_eq_Gat m c b i j

/-- The kernel's run: the result array ends at the specification of the arguments, the arguments unchanged. -/
theorem run : θ_run defs (onTc (τ := τ) (main (F := Ideal))) ⟨m, fun _ => 0, ρ⟩ (fun r => ∀ c : Dev nD,
      r.2.mem ((c.tc : Thread nD τ).loc main_v15) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v15 (Pipeline.mem_restRefs_of main_v15 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KerFinal

end
-- ==== Proof.lean ====
/-
  The certificate: the kernel, its idealization and the idealized reference each run to the end with their arguments
  unchanged; the idealization rewrote nothing, so it preserves the kernel trivially; and from memories that agree on the
  arguments the idealized kernel and the idealized reference end with the same result array.

  That array is the specification `G` (Proof/Spec.lean): at a position whose mask bit is set and which is among the first
  2048 set bits of its batch row, the row function of that row of x (normalise, gain, project down, normalise, gain,
  project up); 0 elsewhere. The kernel reaches it by multiplying every row's value by a 0/1 select column computed from a
  running count (Proof/KerFinal.lean); the reference by sorting the positions, gathering the first 2048, computing their
  rows, masking them and scattering them back into zeros (Proof/RefScatter.lean). On the extended reals a product with 0
  is 0 whatever the other factor is, so no finiteness of the inputs is used.
-/
import proofs.«156894_j48301202210919_1_alg».proof.Defs
import proofs.«156894_j48301202210919_1_alg».proof.Proof.Gen.Kernel
import proofs.«156894_j48301202210919_1_alg».proof.Proof.Gen.Kernel.Skeleton
import proofs.«156894_j48301202210919_1_alg».proof.Proof.Gen.Kernel.Launch
import proofs.«156894_j48301202210919_1_alg».proof.Proof.Gen.Kernel.Points
import proofs.«156894_j48301202210919_1_alg».proof.Proof.Gen.Kernel.Frame
import proofs.«156894_j48301202210919_1_alg».proof.Proof.Gen.KernelIdeal
import proofs.«156894_j48301202210919_1_alg».proof.Proof.Gen.KernelIdeal.Skeleton
import proofs.«156894_j48301202210919_1_alg».proof.Proof.Gen.KernelIdeal.Launch
import proofs.«156894_j48301202210919_1_alg».proof.Proof.Gen.KernelIdeal.Points
import proofs.«156894_j48301202210919_1_alg».proof.Proof.Gen.KernelIdeal.Frame
import proofs.«156894_j48301202210919_1_alg».proof.Proof.Gen.ReferenceIdeal
import proofs.«156894_j48301202210919_1_alg».proof.Proof.Gen.Pre_finite_inputs
import proofs.«156894_j48301202210919_1_alg».proof.Proof.RefRun
import proofs.«156894_j48301202210919_1_alg».proof.Proof.RefRead
import proofs.«156894_j48301202210919_1_alg».proof.Proof.RefScatter
import proofs.«156894_j48301202210919_1_alg».proof.Proof.KerFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at the specification of their own arguments, and the arguments agree. -/
theorem algebraic : Cert.algebraic_KernelIdeal_ReferenceIdeal := by
  intro m ρ m' ρ' _ hagree
  refine ⟨fun c => Cert.KerFinal.Gm m c, Cert.KerFinal.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v56_eq, Cert.RefScatter.ref_eq_G]
  obtain ⟨h0, -, h2, h3, h4, h5, h6⟩ := hagree c
  rw [h0, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
